-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2049 : Shape := ⟨1, ![2049]⟩
abbrev S1024x64x1 : Shape := ⟨3, ![1024, 64, 1]⟩
abbrev S1024x64x64 : Shape := ⟨3, ![1024, 64, 64]⟩
abbrev S1024x2x64 : Shape := ⟨3, ![1024, 2, 64]⟩
abbrev S1024x64 : Shape := ⟨2, ![1024, 64]⟩
abbrev S1024x2 : Shape := ⟨2, ![1024, 2]⟩
abbrev S_ : Shape := ⟨0, ![]⟩

class Facts : Prop where
  bcast_S_S2049 : S_.BroadcastsInDim S2049 (![] : Fin 0 → Fin S2049.rank)
  reducesTo_S2049_S_d0 : S2049.ReducesTo [0] S_
  h_S_ : 0 < S_.numel
  bcast_S_S1024x64x1 : S_.BroadcastsInDim S1024x64x1 (![] : Fin 0 → Fin S1024x64x1.rank)
  reducesTo_S1024x64x1_S_d0_1_2 : S1024x64x1.ReducesTo [0, 1, 2] S_
  bcast_S_S1024x64x64 : S_.BroadcastsInDim S1024x64x64 (![] : Fin 0 → Fin S1024x64x64.rank)
  reducesTo_S1024x64x64_S_d0_1_2 : S1024x64x64.ReducesTo [0, 1, 2] S_
  bcast_S_S1024x2x64 : S_.BroadcastsInDim S1024x2x64 (![] : Fin 0 → Fin S1024x2x64.rank)
  reducesTo_S1024x2x64_S_d0_1_2 : S1024x2x64.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_arg4 : FVec F S1024x64 .f32) (main_arg5 : FVec F S1024x64 .f32) (main_arg6 : FVec F S1024x2 .f32) (main_v13 : IVec S_ 1) (main_v16 : IVec S1024x2x64 1) : IVec S_ 1 :=
  let main_c_5 : IVec S_ 1 := constantI S_ 1 1#1
  let main_v17 : IVec S_ 1 := (fun x v => Host.reduce IntOp.andi x v reducesTo_S1024x2x64_S_d0_1_2 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S1024x2 .f32 := Host.absf main_arg6
  let main_cst_10 : FVec F S_ .f32 := constant S_ .f32 0x7F800000#32
  let main_v30 : FVec F S1024x2 .f32 := broadcastInDim S1024x2 ![] bcast_S_S1024x2 main_cst_10
  let main_v31 : IVec S1024x2 1 := cmpf .olt main_v29 main_v30
  let main_c_11 : IVec S_ 1 := constantI S_ 1 1#1
  let main_v32 : IVec S_ 1 := (fun x v => Host.reduce IntOp.andi x v reducesTo_S1024x2_S_d0_1 h_S_) main_v31 main_c_11
  let main_v33 : IVec S_ 1 := andi main_v28 main_v32
  main_v33

def fn {F : FTy → Type} [FloatOps F] (main_arg0 : FVec F S2049 .f32) (main_arg1 : FVec F S1024x64x1 .f32) (main_arg2 : FVec F S1024x64x64 .f32) (main_arg3 : FVec F S1024x2x64 .f32) (main_arg4 : FVec F S1024x64 .f32) (main_arg5 : FVec F S1024x64 .f32) (main_arg6 : FVec F S1024x2 .f32) : IVec S_ 1 :=
  let main_v0 : FVec F S2049 .f32 := Host.absf main_arg0
  let main_cst : FVec F S_ .f32 := constant S_ .f32 0x7F800000#32
  let main_v1 : FVec F S2049 .f32 := broadcastInDim S2049 ![] bcast_S_S2049 main_cst
  let main_v2 : IVec S2049 1 := cmpf .olt main_v0 main_v1
  let main_c : IVec S_ 1 := constantI S_ 1 1#1
  let main_v3 : IVec S_ 1 := (fun x v => Host.reduce IntOp.andi x v reducesTo_S2049_S_d0 h_S_) main_v2 main_c
  let main_v4 : FVec F S1024x64x1 .f32 := Host.absf main_arg1
  let main_cst_0 : FVec F S_ .f32 := constant S_ .f32 0x7F800000#32
  let main_v5 : FVec F S1024x64x1 .f32 := broadcastInDim S1024x64x1 ![] bcast_S_S1024x64x1 main_cst_0
  let main_v6 : IVec S1024x64x1 1 := cmpf .olt main_v4 main_v5
  let main_c_1 : IVec S_ 1 := constantI S_ 1 1#1
  let main_v7 : IVec S_ 1 := (fun x v => Host.reduce IntOp.andi x v reducesTo_S1024x64x1_S_d0_1_2 h_S_) main_v6 main_c_1
  let main_v8 : IVec S_ 1 := andi main_v3 main_v7
  let main_v9 : FVec F S1024x64x64 .f32 := Host.absf main_arg2
  let main_cst_2 : FVec F S_ .f32 := constant S_ .f32 0x7F800000#32
  let main_v10 : FVec F S1024x64x64 .f32 := broadcastInDim S1024x64x64 ![] bcast_S_S1024x64x64 main_cst_2
  let main_v11 : IVec S1024x64x64 1 := cmpf .olt main_v9 main_v10
  let main_c_3 : IVec S_ 1 := constantI S_ 1 1#1
  let main_v12 : IVec S_ 1 := (fun x v => Host.reduce IntOp.andi x v reducesTo_S1024x64x64_S_d0_1_2 h_S_) main_v11 main_c_3
  let main_v13 : IVec S_ 1 := andi main_v8 main_v12
  let main_v14 : FVec F S1024x2x64 .f32 := Host.absf main_arg3
  let main_cst_4 : FVec F S_ .f32 := constant S_ .f32 0x7F800000#32
  let main_v15 : FVec F S1024x2x64 .f32 := broadcastInDim S1024x2x64 ![] bcast_S_S1024x2x64 main_cst_4
  let main_v16 : IVec S1024x2x64 1 := cmpf .olt main_v14 main_v15
  fn_part1 (F := F) main_arg4 main_arg5 main_arg6 main_v13 main_v16
-- ==== Kernel.lean ====
abbrev S2049 : Shape := ⟨1, ![2049]⟩
abbrev S1024x64x1 : Shape := ⟨3, ![1024, 64, 1]⟩
abbrev S1024x64x64 : Shape := ⟨3, ![1024, 64, 64]⟩
abbrev S1024x2x64 : Shape := ⟨3, ![1024, 2, 64]⟩
abbrev S1024x64 : Shape := ⟨2, ![1024, 64]⟩
abbrev S1024x2 : Shape := ⟨2, ![1024, 2]⟩
abbrev S1025 : Shape := ⟨1, ![1025]⟩
abbrev S1x1025 : Shape := ⟨2, ![1, 1025]⟩
abbrev S_ : Shape := ⟨0, ![]⟩
abbrev S1x1152 : Shape := ⟨2, ![1, 1152]⟩
abbrev S1024x1152 : Shape := ⟨2, ![1024, 1152]⟩
abbrev S8x64x1 : Shape := ⟨3, ![8, 64, 1]⟩
abbrev S8x64x64 : Shape := ⟨3, ![8, 64, 64]⟩
abbrev S8x2x64 : Shape := ⟨3, ![8, 2, 64]⟩
abbrev S8x64 : Shape := ⟨2, ![8, 64]⟩
abbrev S8x2 : Shape := ⟨2, ![8, 2]⟩
abbrev S8x1152 : Shape := ⟨2, ![8, 1152]⟩
abbrev S1x1x1152 : Shape := ⟨3, ![1, 1, 1152]⟩
abbrev S8x64x1152 : Shape := ⟨3, ![8, 64, 1152]⟩
abbrev S8x2x1152 : Shape := ⟨3, ![8, 2, 1152]⟩
abbrev S8x2x1 : Shape := ⟨3, ![8, 2, 1]⟩
abbrev S8x1x1152 : Shape := ⟨3, ![8, 1, 1152]⟩
abbrev S1024x1025 : Shape := ⟨2, ![1024, 1025]⟩
abbrev S1024x1 : Shape := ⟨2, ![1024, 1]⟩
abbrev S1024x1024 : Shape := ⟨2, ![1024, 1024]⟩
abbrev S1024x2049 : Shape := ⟨2, ![1024, 2049]⟩

abbrev nBuf : Space → Nat
  | .hbm => 41
  | .vmem => 23
  | .smem => 0
  | _ => 0

abbrev bufTy : (tb : Table) → Fin (tcTables nBuf tb) → BufTy
  | .hbm, ⟨0, _⟩ => ⟨S2049, .f32⟩
  | .hbm, ⟨1, _⟩ => ⟨S1024x64x1, .f32⟩
  | .hbm, ⟨2, _⟩ => ⟨S1024x64x64, .f32⟩
  | .hbm, ⟨3, _⟩ => ⟨S1024x2x64, .f32⟩
  | .hbm, ⟨4, _⟩ => ⟨S1024x64, .f32⟩
  | .hbm, ⟨5, _⟩ => ⟨S1024x64, .f32⟩
  | .hbm, ⟨6, _⟩ => ⟨S1024x2, .f32⟩
  | .hbm, ⟨7, _⟩ => ⟨S1025, .f32⟩
  | .hbm, ⟨8, _⟩ => ⟨S1x1025, .f32⟩
  | .hbm, ⟨9, _⟩ => ⟨S_, .i32⟩
  | .hbm, ⟨10, _⟩ => ⟨S_, .f32⟩
  | .hbm, ⟨11, _⟩ => ⟨S1x1152, .f32⟩
  | .hbm, ⟨12, _⟩ => ⟨S1x1152, .f32⟩
  | .hbm, ⟨13, _⟩ => ⟨S1x1152, .f32⟩
  | .hbm, ⟨14, _⟩ => ⟨S1024x1152, .f32⟩
  | .hbm, ⟨15, _⟩ => ⟨S1024x1152, .f32⟩
  | .hbm, ⟨16, _⟩ => ⟨S1024x1152, .f32⟩
  | .hbm, ⟨17, _⟩ => ⟨S1024x1152, .f32⟩
  | .hbm, ⟨18, _⟩ => ⟨S1024x1025, .f32⟩
  | .hbm, ⟨19, _⟩ => ⟨S1024x1025, .f32⟩
  | .hbm, ⟨20, _⟩ => ⟨S1024x1025, .f32⟩
  | .hbm, ⟨21, _⟩ => ⟨S1024x1025, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x2049, .f32⟩
  | .hbm, ⟨31, _⟩ => ⟨S1024x1024, .f32⟩
  | .hbm, ⟨32, _⟩ => ⟨S1024x1024, .f32⟩
  | .hbm, ⟨33, _⟩ => ⟨S1024x2049, .f32⟩
  | .hbm, ⟨34, _⟩ => ⟨S1024x1024, .f32⟩
  | .hbm, ⟨35, _⟩ => ⟨S1024x1024, .f32⟩
  | .hbm, ⟨36, _⟩ => ⟨S1024x2049, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x2049, .f32⟩
  | .local _ .vmem, ⟨0, _⟩ => ⟨S8x64x1, .f32⟩
  | .local _ .vmem, ⟨1, _⟩ => ⟨S8x64x1, .f32⟩
  | .local _ .vmem, ⟨2, _⟩ => ⟨S8x64x64, .f32⟩
  | .local _ .vmem, ⟨3, _⟩ => ⟨S8x64x64, .f32⟩
  | .local _ .vmem, ⟨4, _⟩ => ⟨S8x2x64, .f32⟩
  | .local _ .vmem, ⟨5, _⟩ => ⟨S8x2x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S8x2, .f32⟩
  | .local _ .vmem, ⟨11, _⟩ => ⟨S8x2, .f32⟩
  | .local _ .vmem, ⟨12, _⟩ => ⟨S1x1152, .f32⟩
  | .local _ .vmem, ⟨13, _⟩ => ⟨S1x1152, .f32⟩
  | .local _ .vmem, ⟨14, _⟩ => ⟨S1x1152, .f32⟩
  | .local _ .vmem, ⟨15, _⟩ => ⟨S8x1152, .f32⟩
  | .local _ .vmem, ⟨16, _⟩ => ⟨S8x1152, .f32⟩
  | .local _ .vmem, ⟨17, _⟩ => ⟨S8x1152, .f32⟩
  | .local _ .vmem, ⟨18, _⟩ => ⟨S8x1152, .f32⟩
  | .local _ .vmem, ⟨19, _⟩ => ⟨S8x1152, .f32⟩
  | .local _ .vmem, ⟨20, _⟩ => ⟨S8x1152, .f32⟩
  | .local _ .vmem, ⟨21, _⟩ => ⟨S8x1152, .f32⟩
  | .local _ .vmem, ⟨22, _⟩ => ⟨S8x1152, .f32⟩
  | _, _ => ⟨S2049, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2049_S1025_0 : S2049.Slices ![0] S1025
  shapeCasts_S1025_S1x1025 : S1025.ShapeCasts S1x1025
  pads_S1x1025_S1x1152_000_01270 : S1x1025.Pads (![0, 0] : Fin 2 → Nat) ![0, 127] ![0, 0] S1x1152
  h_S_ : 0 < S_.numel
  inb_S8x64x1_S8x64x1_0_0_0 : ∀ a, (![0, 0, 0] : Fin 3 → Nat) a + S8x64x1.size a ≤ S8x64x1.size a
  h_S8x64x1 : 0 < S8x64x1.numel
  inb_S8x64x64_S8x64x64_0_0_0 : ∀ a, (![0, 0, 0] : Fin 3 → Nat) a + S8x64x64.size a ≤ S8x64x64.size a
  h_S8x64x64 : 0 < S8x64x64.numel
  inb_S8x2x64_S8x2x64_0_0_0 : ∀ a, (![0, 0, 0] : Fin 3 → Nat) a + S8x2x64.size a ≤ S8x2x64.size a
  h_S8x2x64 : 0 < S8x2x64.numel
  inb_S8x64_S8x64_0_0 : ∀ a, (![0, 0] : Fin 2 → Nat) a + S8x64.size a ≤ S8x64.size a
  h_S8x64 : 0 < S8x64.numel
  inb_S8x2_S8x2_0_0 : ∀ a, (![0, 0] : Fin 2 → Nat) a + S8x2.size a ≤ S8x2.size a
  h_S8x2 : 0 < S8x2.numel
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  shapeCasts_S1x1152_S1x1x1152 : S1x1152.ShapeCasts S1x1x1152
  broadcasts_S8x64x1_S8x64x1152 : S8x64x1.Broadcasts S8x64x1152
  broadcasts_S1x1x1152_S8x64x1152 : S1x1x1152.Broadcasts S8x64x1152
  shapeCasts_S8x64_S8x64x1 : S8x64.ShapeCasts S8x64x1
  bitsLt_bf16_f32 : FTy.bits .bf16 < FTy.bits .f32
  shapeCasts_S8x2_S8x2x1 : S8x2.ShapeCasts S8x2x1
  broadcasts_S8x2x1_S8x2x1152 : S8x2x1.Broadcasts S8x2x1152
  slices_S8x2x1152_o0_0_0_S8x1x1152 : S8x2x1152.Slices ![0, 0, 0] S8x1x1152
  shapeCasts_S8x1x1152_S8x1152 : S8x1x1152.ShapeCasts S8x1152
  slices_S8x2x1152_o0_1_0_S8x1x1152 : S8x2x1152.Slices ![0, 1, 0] S8x1x1152
  broadcasts_S1x1152_S8x1152 : S1x1152.Broadcasts S8x1152
  inb_S8x1152_S8x1152_0_0 : ∀ a, (![0, 0] : Fin 2 → Nat) a + S8x1152.size a ≤ S8x1152.size a
  h_S8x1152 : 0 < S8x1152.numel
  slices_S1024x1152_S1024x1025_0_0 : S1024x1152.Slices ![0, 0] S1024x1025
  slices_S1024x1025_S1024x1_0_1024 : S1024x1025.Slices ![0, 1024] S1024x1
  bcast_S_S1024x1 : S_.BroadcastsInDim S1024x1 (![] : Fin 0 → Fin S1024x1.rank)
  slices_S1024x1025_S1024x1024_0_0 : S1024x1025.Slices ![0, 0] S1024x1024
  bcast_S1024x1_S1024x1024_0_1 : S1024x1.BroadcastsInDim S1024x1024 (![0, 1] : Fin 2 → Fin S1024x1024.rank)
  concatenates_S1024x1025_S1024x1024_S1024x2049_d1 : Shape.Concatenates [S1024x1025, S1024x1024] S1024x2049 1
  dot_S8x64x64_S8x64x1152_S8x64x1152_2_1_1_2_0_0_wf : DotDims.WF S8x64x64 S8x64x1152 S8x64x1152 [2] [1] [1] [2] [0] [0]
  dot_S8x2x64_S8x64x1152_S8x2x1152_2_1_1_2_0_0_wf : DotDims.WF S8x2x64 S8x64x1152 S8x2x1152 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1.size a ≤ S1024x64x1.size a
  hwx0_0 : ∀ i : grid0.Coords, EltTy.bits .f32 = 32 ∨ (Rect.block (s := S1024x64x1) S8x64x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x64.size a ≤ S1024x64x64.size a
  hwx0_1 : ∀ i : grid0.Coords, EltTy.bits .f32 = 32 ∨ (Rect.block (s := S1024x64x64) S8x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2x64.size a ≤ S1024x2x64.size a
  hwx0_2 : ∀ i : grid0.Coords, EltTy.bits .f32 = 32 ∨ (Rect.block (s := S1024x2x64) S8x2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S1024x64.size a
  hwx0_3 : ∀ i : grid0.Coords, EltTy.bits .f32 = 32 ∨ (Rect.block (s := S1024x64) S8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S1024x64.size a
  hwx0_4 : ∀ i : grid0.Coords, EltTy.bits .f32 = 32 ∨ (Rect.block (s := S1024x64) S8x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2.size a ≤ S1024x2.size a
  hwx0_5 : ∀ i : grid0.Coords, EltTy.bits .f32 = 32 ∨ (Rect.block (s := S1024x2) S8x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1152.size a ≤ S1x1152.size a
  hwx0_6 : ∀ i : grid0.Coords, EltTy.bits .f32 = 32 ∨ (Rect.block (s := S1x1152) S1x1152.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1152.size a ≤ S1x1152.size a
  hwx0_7 : ∀ i : grid0.Coords, EltTy.bits .f32 = 32 ∨ (Rect.block (s := S1x1152) S1x1152.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1152.size a ≤ S1x1152.size a
  hwx0_8 : ∀ i : grid0.Coords, EltTy.bits .f32 = 32 ∨ (Rect.block (s := S1x1152) S1x1152.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1152.size a ≤ S1024x1152.size a
  hwx0_9 : ∀ i : grid0.Coords, EltTy.bits .f32 = 32 ∨ (Rect.block (s := S1024x1152) S8x1152.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1152.size a ≤ S1024x1152.size a
  hwx0_10 : ∀ i : grid0.Coords, EltTy.bits .f32 = 32 ∨ (Rect.block (s := S1024x1152) S8x1152.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1152.size a ≤ S1024x1152.size a
  hwx0_11 : ∀ i : grid0.Coords, EltTy.bits .f32 = 32 ∨ (Rect.block (s := S1024x1152) S8x1152.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x1152.size a ≤ S1024x1152.size a
  hwx0_12 : ∀ i : grid0.Coords, EltTy.bits .f32 = 32 ∨ (Rect.block (s := S1024x1152) S8x1152.size (cc0_transform_12 i) (hinb0_12 i)).WholeWords (EltTy.packing .f32)

variable [Facts₀]

def dot_S8x64x64_S8x64x1152_S8x64x1152_2_1_1_2_0_0 : DotDims S8x64x64 S8x64x1152 S8x64x1152 where
  lhsContracting := [2]
  rhsContracting := [1]
  lhsNonContracting := [1]
  rhsNonContracting := [2]
  lhsBatch := [0]
  rhsBatch := [0]
  wf := dot_S8x64x64_S8x64x1152_S8x64x1152_2_1_1_2_0_0_wf
def dot_S8x2x64_S8x64x1152_S8x2x1152_2_1_1_2_0_0 : DotDims S8x2x64 S8x64x1152 S8x2x1152 where
  lhsContracting := [2]
  rhsContracting := [1]
  lhsNonContracting := [1]
  rhsNonContracting := [2]
  lhsBatch := [0]
  rhsBatch := [0]
  wf := dot_S8x2x64_S8x64x1152_S8x2x1152_2_1_1_2_0_0_wf

abbrev win0_0 : Pipeline.Window sig grid0 :=
  Pipeline.Window.ofSpec (Memref.whole main_arg1) S8x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x2x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1152.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1152.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S8x1152.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S8x1152.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S8x1152.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_3) S8x1152.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2049 : Shape := ⟨1, ![2049]⟩
abbrev S1024x64x1 : Shape := ⟨3, ![1024, 64, 1]⟩
abbrev S1024x64x64 : Shape := ⟨3, ![1024, 64, 64]⟩
abbrev S1024x2x64 : Shape := ⟨3, ![1024, 2, 64]⟩
abbrev S1024x64 : Shape := ⟨2, ![1024, 64]⟩
abbrev S1024x2 : Shape := ⟨2, ![1024, 2]⟩
abbrev S1025 : Shape := ⟨1, ![1025]⟩
abbrev S1x1025x1 : Shape := ⟨3, ![1, 1025, 1]⟩
abbrev S1024x1025x1 : Shape := ⟨3, ![1024, 1025, 1]⟩
abbrev S_ : Shape := ⟨0, ![]⟩
abbrev S1024x1025x64 : Shape := ⟨3, ![1024, 1025, 64]⟩
abbrev S1024x1x64 : Shape := ⟨3, ![1024, 1, 64]⟩
abbrev S1024x1025x2 : Shape := ⟨3, ![1024, 1025, 2]⟩
abbrev S1024x1x2 : Shape := ⟨3, ![1024, 1, 2]⟩
abbrev S1024x1025 : Shape := ⟨2, ![1024, 1025]⟩
abbrev S1x1025 : Shape := ⟨2, ![1, 1025]⟩
abbrev S1024x1 : Shape := ⟨2, ![1024, 1]⟩
abbrev S1024x1024 : Shape := ⟨2, ![1024, 1024]⟩
abbrev S1024x2049 : Shape := ⟨2, ![1024, 2049]⟩

abbrev nBuf : Space → Nat
  | .hbm => 97
  | .vmem => 0
  | .smem => 0
  | _ => 0

abbrev bufTy : (tb : Table) → Fin (tcTables nBuf tb) → BufTy
  | .hbm, ⟨0, _⟩ => ⟨S2049, .f32⟩
  | .hbm, ⟨1, _⟩ => ⟨S1024x64x1, .f32⟩
  | .hbm, ⟨2, _⟩ => ⟨S1024x64x64, .f32⟩
  | .hbm, ⟨3, _⟩ => ⟨S1024x2x64, .f32⟩
  | .hbm, ⟨4, _⟩ => ⟨S1024x64, .f32⟩
  | .hbm, ⟨5, _⟩ => ⟨S1024x64, .f32⟩
  | .hbm, ⟨6, _⟩ => ⟨S1024x2, .f32⟩
  | .hbm, ⟨7, _⟩ => ⟨S1025, .f32⟩
  | .hbm, ⟨8, _⟩ => ⟨S1x1025x1, .f32⟩
  | .hbm, ⟨9, _⟩ => ⟨S1024x1025x1, .f32⟩
  | .hbm, ⟨10, _⟩ => ⟨S_, .f32⟩
  | .hbm, ⟨11, _⟩ => ⟨S1024x1025x1, .f32⟩
  | .hbm, ⟨12, _⟩ => ⟨S1024x1025x64, .f32⟩
  | .hbm, ⟨13, _⟩ => ⟨S1024x1025x64, .f32⟩
  | .hbm, ⟨14, _⟩ => ⟨S1024x1x64, .f32⟩
  | .hbm, ⟨15, _⟩ => ⟨S1024x1025x64, .f32⟩
  | .hbm, ⟨16, _⟩ => ⟨S1024x1025x64, .f32⟩
  | .hbm, ⟨17, _⟩ => ⟨S1024x1025x64, .f32⟩
  | .hbm, ⟨18, _⟩ => ⟨S1024x1025x64, .f32⟩
  | .hbm, ⟨19, _⟩ => ⟨S1024x1025x64, .f32⟩
  | .hbm, ⟨20, _⟩ => ⟨S_, .f32⟩
  | .hbm, ⟨21, _⟩ => ⟨S1024x1025x64, .f32⟩
  | .hbm, ⟨22, _⟩ => ⟨S1024x1025x64, .f32⟩
  | .hbm, ⟨23, _⟩ => ⟨S1024x1025x64, .f32⟩
  | .hbm, ⟨24, _⟩ => ⟨S1024x1025x64, .f32⟩
  | .hbm, ⟨25, _⟩ => ⟨S1024x1025x64, .f32⟩
  | .hbm, ⟨26, _⟩ => ⟨S1024x1x64, .f32⟩
  | .hbm, ⟨27, _⟩ => ⟨S1024x1025x64, .f32⟩
  | .hbm, ⟨28, _⟩ => ⟨S1024x1025x64, .f32⟩
  | .hbm, ⟨29, _⟩ => ⟨S1024x1025x64, .f32⟩
  | .hbm, ⟨30, _⟩ => ⟨S1024x1025x64, .f32⟩
  | .hbm, ⟨31, _⟩ => ⟨S1024x1025x64, .f32⟩
  | .hbm, ⟨32, _⟩ => ⟨S_, .f32⟩
  | .hbm, ⟨33, _⟩ => ⟨S1024x1025x64, .f32⟩
  | .hbm, ⟨34, _⟩ => ⟨S1024x1025x64, .f32⟩
  | .hbm, ⟨35, _⟩ => ⟨S1024x1025x64, .f32⟩
  | .hbm, ⟨36, _⟩ => ⟨S1024x1025x2, .f32⟩
  | .hbm, ⟨37, _⟩ => ⟨S1024x1025x2, .f32⟩
  | .hbm, ⟨38, _⟩ => ⟨S1024x1x2, .f32⟩
  | .hbm, ⟨39, _⟩ => ⟨S1024x1025x2, .f32⟩
  | .hbm, ⟨40, _⟩ => ⟨S1024x1025x2, .f32⟩
  | .hbm, ⟨41, _⟩ => ⟨S1024x1025x2, .f32⟩
  | .hbm, ⟨42, _⟩ => ⟨S1024x1025x2, .f32⟩
  | .hbm, ⟨43, _⟩ => ⟨S1024x1025x2, .f32⟩
  | .hbm, ⟨44, _⟩ => ⟨S1024x1025x2, .f32⟩
  | .hbm, ⟨45, _⟩ => ⟨S1024x1025x1, .f32⟩
  | .hbm, ⟨46, _⟩ => ⟨S1024x1025, .f32⟩
  | .hbm, ⟨47, _⟩ => ⟨S1024x1025x1, .f32⟩
  | .hbm, ⟨48, _⟩ => ⟨S1024x1025, .f32⟩
  | .hbm, ⟨49, _⟩ => ⟨S1024x1025x1, .f32⟩
  | .hbm, ⟨50, _⟩ => ⟨S1024x1025, .f32⟩
  | .hbm, ⟨51, _⟩ => ⟨S1024x1025x1, .f32⟩
  | .hbm, ⟨52, _⟩ => ⟨S1024x1025, .f32⟩
  | .hbm, ⟨53, _⟩ => ⟨S1025, .f32⟩
  | .hbm, ⟨54, _⟩ => ⟨S1x1025, .f32⟩
  | .hbm, ⟨55, _⟩ => ⟨S1025, .f32⟩
  | .hbm, ⟨56, _⟩ => ⟨S1x1025, .f32⟩
  | .hbm, ⟨57, _⟩ => ⟨S_, .f32⟩
  | .hbm, ⟨58, _⟩ => ⟨S1x1025, .f32⟩
  | .hbm, ⟨59, _⟩ => ⟨S1x1025, .f32⟩
  | .hbm, ⟨60, _⟩ => ⟨S1024x1025, .f32⟩
  | .hbm, ⟨61, _⟩ => ⟨S1024x1025, .f32⟩
  | .hbm, ⟨62, _⟩ => ⟨S1024x1025, .f32⟩
  | .hbm, ⟨63, _⟩ => ⟨S1024x1025, .f32⟩
  | .hbm, ⟨64, _⟩ => ⟨S1024x1025, .f32⟩
  | .hbm, ⟨65, _⟩ => ⟨S1024x1025, .f32⟩
  | .hbm, ⟨66, _⟩ => ⟨S1024x1025, .f32⟩
  | .hbm, ⟨67, _⟩ => ⟨S_, .f32⟩
  | .hbm, ⟨68, _⟩ => ⟨S1x1025, .f32⟩
  | .hbm, ⟨69, _⟩ => ⟨S1x1025, .f32⟩
  | .hbm, ⟨70, _⟩ => ⟨S1024x1025, .f32⟩
  | .hbm, ⟨71, _⟩ => ⟨S1024x1025, .f32⟩
  | .hbm, ⟨72, _⟩ => ⟨S1024x1025, .f32⟩
  | .hbm, ⟨73, _⟩ => ⟨S1024x1025, .f32⟩
  | .hbm, ⟨74, _⟩ => ⟨S1024x1025, .f32⟩
  | .hbm, ⟨75, _⟩ => ⟨S1024x1025, .f32⟩
  | .hbm, ⟨76, _⟩ => ⟨S1024x1025, .f32⟩
  | .hbm, ⟨77, _⟩ => ⟨S1024x1025, .f32⟩
  | .hbm, ⟨78, _⟩ => ⟨S1024x1, .f32⟩
  | .hbm, ⟨79, _⟩ => ⟨S_, .f32⟩
  | .hbm, ⟨80, _⟩ => ⟨S1024x1, .f32⟩
  | .hbm, ⟨81, _⟩ => ⟨S1024x1, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x2049, .f32⟩
  | .hbm, ⟨87, _⟩ => ⟨S1024x1024, .f32⟩
  | .hbm, ⟨88, _⟩ => ⟨S1024x1024, .f32⟩
  | .hbm, ⟨89, _⟩ => ⟨S1024x2049, .f32⟩
  | .hbm, ⟨90, _⟩ => ⟨S1024x1024, .f32⟩
  | .hbm, ⟨91, _⟩ => ⟨S1024x1024, .f32⟩
  | .hbm, ⟨92, _⟩ => ⟨S1024x2049, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S1024x2049, .f32⟩
  | _, _ => ⟨S2049, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_3 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_4 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩

abbrev nD : Nat := 1
abbrev τ : Topo := Topo.v7x

variable {F : FTy → Type} [FloatOps F]

class Facts₀ : Prop where
  slices_S2049_S1025_0 : S2049.Slices ![0] S1025
  bcast_S1025_S1x1025x1_1 : S1025.BroadcastsInDim S1x1025x1 (![1] : Fin 1 → Fin S1x1025x1.rank)
  bcast_S1x1025x1_S1024x1025x1_0_1_2 : S1x1025x1.BroadcastsInDim S1024x1025x1 (![0, 1, 2] : Fin 3 → Fin S1024x1025x1.rank)
  bcast_S_S1024x1025x1 : S_.BroadcastsInDim S1024x1025x1 (![] : Fin 0 → Fin S1024x1025x1.rank)
  bcast_S1024x64_S1024x1x64_0_2 : S1024x64.BroadcastsInDim S1024x1x64 (![0, 2] : Fin 2 → Fin S1024x1x64.rank)
  bcast_S1024x1x64_S1024x1025x64_0_1_2 : S1024x1x64.BroadcastsInDim S1024x1025x64 (![0, 1, 2] : Fin 3 → Fin S1024x1025x64.rank)
  bcast_S_S1024x1025x64 : S_.BroadcastsInDim S1024x1025x64 (![] : Fin 0 → Fin S1024x1025x64.rank)
  bcast_S1024x2_S1024x1x2_0_2 : S1024x2.BroadcastsInDim S1024x1x2 (![0, 2] : Fin 2 → Fin S1024x1x2.rank)
  bcast_S1024x1x2_S1024x1025x2_0_1_2 : S1024x1x2.BroadcastsInDim S1024x1025x2 (![0, 1, 2] : Fin 3 → Fin S1024x1025x2.rank)
  slices_S1024x1025x2_S1024x1025x1_0_0_0 : S1024x1025x2.Slices ![0, 0, 0] S1024x1025x1
  shapeCasts_S1024x1025x1_S1024x1025 : S1024x1025x1.ShapeCasts S1024x1025
  slices_S1024x1025x2_S1024x1025x1_0_0_1 : S1024x1025x2.Slices ![0, 0, 1] S1024x1025x1
  bcast_S1025_S1x1025_1 : S1025.BroadcastsInDim S1x1025 (![1] : Fin 1 → Fin S1x1025.rank)
  bcast_S_S1x1025 : S_.BroadcastsInDim S1x1025 (![] : Fin 0 → Fin S1x1025.rank)
  bcast_S1x1025_S1024x1025_0_1 : S1x1025.BroadcastsInDim S1024x1025 (![0, 1] : Fin 2 → Fin S1024x1025.rank)
  slices_S1024x1025_S1024x1_0_1024 : S1024x1025.Slices ![0, 1024] S1024x1
  bcast_S_S1024x1 : S_.BroadcastsInDim S1024x1 (![] : Fin 0 → Fin S1024x1.rank)
  slices_S1024x1025_S1024x1024_0_0 : S1024x1025.Slices ![0, 0] S1024x1024
  bcast_S1024x1_S1024x1024_0_1 : S1024x1.BroadcastsInDim S1024x1024 (![0, 1] : Fin 2 → Fin S1024x1024.rank)
  concatenates_S1024x1025_S1024x1024_S1024x2049_d1 : Shape.Concatenates [S1024x1025, S1024x1024] S1024x2049 1
  dot_S1024x1025x1_S1024x64x1_S1024x1025x64_2_2_1_1_0_0_wf : DotDims.WF S1024x1025x1 S1024x64x1 S1024x1025x64 [2] [2] [1] [1] [0] [0]
  dot_S1024x1025x64_S1024x64x64_S1024x1025x64_2_2_1_1_0_0_wf : DotDims.WF S1024x1025x64 S1024x64x64 S1024x1025x64 [2] [2] [1] [1] [0] [0]
  dot_S1024x1025x64_S1024x2x64_S1024x1025x2_2_2_1_1_0_0_wf : DotDims.WF S1024x1025x64 S1024x2x64 S1024x1025x2 [2] [2] [1] [1] [0] [0]

variable [Facts₀]

def dot_S1024x1025x1_S1024x64x1_S1024x1025x64_2_2_1_1_0_0 : DotDims S1024x1025x1 S1024x64x1 S1024x1025x64 where
  lhsContracting := [2]
  rhsContracting := [2]
  lhsNonContracting := [1]
  rhsNonContracting := [1]
  lhsBatch := [0]
  rhsBatch := [0]
  wf := dot_S1024x1025x1_S1024x64x1_S1024x1025x64_2_2_1_1_0_0_wf
def dot_S1024x1025x64_S1024x64x64_S1024x1025x64_2_2_1_1_0_0 : DotDims S1024x1025x64 S1024x64x64 S1024x1025x64 where
  lhsContracting := [2]
  rhsContracting := [2]
  lhsNonContracting := [1]
  rhsNonContracting := [1]
  lhsBatch := [0]
  rhsBatch := [0]
  wf := dot_S1024x1025x64_S1024x64x64_S1024x1025x64_2_2_1_1_0_0_wf
def dot_S1024x1025x64_S1024x2x64_S1024x1025x2_2_2_1_1_0_0 : DotDims S1024x1025x64 S1024x2x64 S1024x1025x2 where
  lhsContracting := [2]
  rhsContracting := [2]
  lhsNonContracting := [1]
  rhsNonContracting := [1]
  lhsBatch := [0]
  rhsBatch := [0]
  wf := dot_S1024x1025x64_S1024x2x64_S1024x1025x2_2_2_1_1_0_0_wf

class Facts : Prop extends Facts₀ where

variable [Facts]
-- ==== Proof.MlpSpec.lean ====
/-
  The function both programs compute, for ONE row of parameters and ONE angle.

  A row holds a three-layer network on a scalar input `x`: 64 hidden units `tanh (w0 j · x + b0 j)`, 64 more
  `tanh (Σ j, w1 i j · h0 j + b1 i)`, two linear outputs `Σ j, w2 i j · h1 j + b2 i`, each squared; beside it the
  derivative of everything with respect to `x` (the tangent of `x` is one). The four results at an angle combine the
  two squared outputs and their derivatives with `cos x - 1`, `sin x` and `cos x`.

  The two programs arrange this differently, and both arrangements are written out here over the extended reals:
  `K` is the kernel's — the derivative of `tanh` as `(1 - h²) · g`, of a square as `(2 · l) · d`, a negation as
  `0 - a`, the weights on the left of every product —, `R` the reference's, which is what forward-mode
  differentiation writes: `(g + g · h) · (1 - h)` for `tanh`, `d · l + l · d` for the square, `-a`, the weights on the
  right. The three float literals stay the words both programs print.
-/
import Idealize.ShloMosaic.PureOps.Ideal
import Idealize.ShloMosaic.Lib.ValueIdx

noncomputable section

namespace Cert.Mlp

open Idealize.ShloMosaic Idealize.ShloMosaic.ValueIdx

/-- The literals `0.0`, `1.0` and `2.0` as the extended reals their words denote. -/
abbrev c0 : EReal := Ideal.ofBits .f32 0x00000000#32
abbrev c1 : EReal := Ideal.ofBits .f32 0x3F800000#32
abbrev c2 : EReal := Ideal.ofBits .f32 0x40000000#32

/-- One row's parameters: the three layers' weights and biases. -/
structure Row where
  w0 : Fin 64 → EReal
  b0 : Fin 64 → EReal
  w1 : Fin 64 → Fin 64 → EReal
  b1 : Fin 64 → EReal
  w2 : Fin 2 → Fin 64 → EReal
  b2 : Fin 2 → EReal

/-- Row `n` of the seven parameter arrays (1024 rows). -/
def rowAt (W0 : FVec Ideal ⟨3, ![1024, 64, 1]⟩ .f32) (W1 : FVec Ideal ⟨3, ![1024, 64, 64]⟩ .f32)
    (W2 : FVec Ideal ⟨3, ![1024, 2, 64]⟩ .f32) (B0 B1 : FVec Ideal ⟨2, ![1024, 64]⟩ .f32)
    (B2 : FVec Ideal ⟨2, ![1024, 2]⟩ .f32) (n : Fin 1024) : Row where
  w0 j := W0 (ix3 n j (0 : Fin 1))
  b0 j := B0 (ix2 n j)
  w1 i j := W1 (ix3 n i j)
  b1 i := B1 (ix2 n i)
  w2 i j := W2 (ix3 n i j)
  b2 i := B2 (ix2 n i)

/-- Row `p` of a block of eight rows of them. -/
def rowAt8 (W0 : FVec Ideal ⟨3, ![8, 64, 1]⟩ .f32) (W1 : FVec Ideal ⟨3, ![8, 64, 64]⟩ .f32)
    (W2 : FVec Ideal ⟨3, ![8, 2, 64]⟩ .f32) (B0 B1 : FVec Ideal ⟨2, ![8, 64]⟩ .f32)
    (B2 : FVec Ideal ⟨2, ![8, 2]⟩ .f32) (p : Fin 8) : Row where
  w0 j := W0 (ix3 p j (0 : Fin 1))
  b0 j := B0 (ix2 p j)
  w1 i j := W1 (ix3 p i j)
  b1 i := B1 (ix2 p i)
  w2 i j := W2 (ix3 p i j)
  b2 i := B2 (ix2 p i)

/-! ## The kernel's arrangement -/
namespace K

def h0 (r : Row) (x : EReal) (j : Fin 64) : EReal := Ideal.tanh (r.w0 j * x + r.b0 j)
def dh0 (r : Row) (x : EReal) (j : Fin 64) : EReal := (c1 - h0 r x j * h0 r x j) * r.w0 j
def pre1 (r : Row) (x : EReal) (i : Fin 64) : EReal := (∑ j : Fin 64, r.w1 i j * h0 r x j) + r.b1 i
def dpre1 (r : Row) (x : EReal) (i : Fin 64) : EReal := ∑ j : Fin 64, r.w1 i j * dh0 r x j
def h1 (r : Row) (x : EReal) (i : Fin 64) : EReal := Ideal.tanh (pre1 r x i)
def dh1 (r : Row) (x : EReal) (i : Fin 64) : EReal := (c1 - h1 r x i * h1 r x i) * dpre1 r x i
def lin (r : Row) (x : EReal) (i : Fin 2) : EReal := (∑ j : Fin 64, r.w2 i j * h1 r x j) + r.b2 i
def dlin (r : Row) (x : EReal) (i : Fin 2) : EReal := ∑ j : Fin 64, r.w2 i j * dh1 r x j

def xp (r : Row) (x ca : EReal) : EReal := (lin r x 0 * lin r x 0) * (ca - c1)
def yp (r : Row) (x sa : EReal) : EReal := (lin r x 1 * lin r x 1) * sa
def xpp (r : Row) (x ca sa : EReal) : EReal :=
  (c0 - lin r x 0 * lin r x 0) * sa + ((c2 * lin r x 0) * dlin r x 0) * (ca - c1)
def ypp (r : Row) (x ca sa : EReal) : EReal :=
  (lin r x 1 * lin r x 1) * ca + ((c2 * lin r x 1) * dlin r x 1) * sa

end K

/-! ## The reference's arrangement -/
namespace R

def h0 (r : Row) (x : EReal) (j : Fin 64) : EReal := Ideal.tanh (x * r.w0 j + r.b0 j)
def g0 (r : Row) (j : Fin 64) : EReal := c1 * r.w0 j
def dh0 (r : Row) (x : EReal) (j : Fin 64) : EReal := (g0 r j + g0 r j * h0 r x j) * (c1 - h0 r x j)
def pre1 (r : Row) (x : EReal) (i : Fin 64) : EReal := (∑ j : Fin 64, h0 r x j * r.w1 i j) + r.b1 i
def dpre1 (r : Row) (x : EReal) (i : Fin 64) : EReal := ∑ j : Fin 64, dh0 r x j * r.w1 i j
def h1 (r : Row) (x : EReal) (i : Fin 64) : EReal := Ideal.tanh (pre1 r x i)
def dh1 (r : Row) (x : EReal) (i : Fin 64) : EReal := (dpre1 r x i + dpre1 r x i * h1 r x i) * (c1 - h1 r x i)
def lin (r : Row) (x : EReal) (i : Fin 2) : EReal := (∑ j : Fin 64, h1 r x j * r.w2 i j) + r.b2 i
def dlin (r : Row) (x : EReal) (i : Fin 2) : EReal := ∑ j : Fin 64, dh1 r x j * r.w2 i j
def sqr (r : Row) (x : EReal) (i : Fin 2) : EReal := lin r x i * lin r x i
def dsqr (r : Row) (x : EReal) (i : Fin 2) : EReal := dlin r x i * lin r x i + lin r x i * dlin r x i

def xp (r : Row) (x ca : EReal) : EReal := sqr r x 0 * (ca - c1)
def yp (r : Row) (x sa : EReal) : EReal := sqr r x 1 * sa
def xpp (r : Row) (x ca sa : EReal) : EReal := (-(sqr r x 0)) * sa + dsqr r x 0 * (ca - c1)
def ypp (r : Row) (x ca sa : EReal) : EReal := sqr r x 1 * ca + dsqr r x 1 * sa

end R

/-! ## Whole arrays

  The angle of column `b` is entry `b` of the angle array (only its first 1025 entries are used). Each program's four
  [1024 × 1025] arrays, which both then mirror and join in the same way, are its arrangement at (row, column).
  The kernel first writes arrays 1152 columns wide, from a padded angle row and rows holding its cosines and sines. -/

/-- The angle of column `b`. -/
def angle (AL : FVec Ideal ⟨1, ![2049]⟩ .f32) (b : Fin 1025) : EReal :=
  AL (ix1 (⟨b.val, by have := b.isLt; omega⟩ : Fin 2049))

section
variable (AL : FVec Ideal ⟨1, ![2049]⟩ .f32)
  (W0 : FVec Ideal ⟨3, ![1024, 64, 1]⟩ .f32) (W1 : FVec Ideal ⟨3, ![1024, 64, 64]⟩ .f32)
  (W2 : FVec Ideal ⟨3, ![1024, 2, 64]⟩ .f32) (B0 B1 : FVec Ideal ⟨2, ![1024, 64]⟩ .f32)
  (B2 : FVec Ideal ⟨2, ![1024, 2]⟩ .f32)

namespace K
def resXp : FVec Ideal ⟨2, ![1024, 1025]⟩ .f32 := fun i =>
  xp (rowAt W0 W1 W2 B0 B1 B2 ⟨(i 0).val, (i 0).isLt⟩) (angle AL ⟨(i 1).val, (i 1).isLt⟩)
    (Ideal.cos (angle AL ⟨(i 1).val, (i 1).isLt⟩))
def resYp : FVec Ideal ⟨2, ![1024, 1025]⟩ .f32 := fun i =>
  yp (rowAt W0 W1 W2 B0 B1 B2 ⟨(i 0).val, (i 0).isLt⟩) (angle AL ⟨(i 1).val, (i 1).isLt⟩)
    (Ideal.sin (angle AL ⟨(i 1).val, (i 1).isLt⟩))
def resXpp : FVec Ideal ⟨2, ![1024, 1025]⟩ .f32 := fun i =>
  xpp (rowAt W0 W1 W2 B0 B1 B2 ⟨(i 0).val, (i 0).isLt⟩) (angle AL ⟨(i 1).val, (i 1).isLt⟩)
    (Ideal.cos (angle AL ⟨(i 1).val, (i 1).isLt⟩)) (Ideal.sin (angle AL ⟨(i 1).val, (i 1).isLt⟩))
def resYpp : FVec Ideal ⟨2, ![1024, 1025]⟩ .f32 := fun i =>
  ypp (rowAt W0 W1 W2 B0 B1 B2 ⟨(i 0).val, (i 0).isLt⟩) (angle AL ⟨(i 1).val, (i 1).isLt⟩)
    (Ideal.cos (angle AL ⟨(i 1).val, (i 1).isLt⟩)) (Ideal.sin (angle AL ⟨(i 1).val, (i 1).isLt⟩))

/-- The kernel's own 1152-column arrays, from the padded angle row `AH` and the rows `CA`, `SA` it is handed. -/
def arrXp (AH CA : FVec Ideal ⟨2, ![1, 1152]⟩ .f32) : FVec Ideal ⟨2, ![1024, 1152]⟩ .f32 := fun i =>
  xp (rowAt W0 W1 W2 B0 B1 B2 ⟨(i 0).val, (i 0).isLt⟩) (AH (ix2 (0 : Fin 1) (⟨(i 1).val, (i 1).isLt⟩ : Fin 1152)))
    (CA (ix2 (0 : Fin 1) (⟨(i 1).val, (i 1).isLt⟩ : Fin 1152)))
def arrYp (AH SA : FVec Ideal ⟨2, ![1, 1152]⟩ .f32) : FVec Ideal ⟨2, ![1024, 1152]⟩ .f32 := fun i =>
  yp (rowAt W0 W1 W2 B0 B1 B2 ⟨(i 0).val, (i 0).isLt⟩) (AH (ix2 (0 : Fin 1) (⟨(i 1).val, (i 1).isLt⟩ : Fin 1152)))
    (SA (ix2 (0 : Fin 1) (⟨(i 1).val, (i 1).isLt⟩ : Fin 1152)))
def arrXpp (AH CA SA : FVec Ideal ⟨2, ![1, 1152]⟩ .f32) : FVec Ideal ⟨2, ![1024, 1152]⟩ .f32 := fun i =>
  xpp (rowAt W0 W1 W2 B0 B1 B2 ⟨(i 0).val, (i 0).isLt⟩) (AH (ix2 (0 : Fin 1) (⟨(i 1).val, (i 1).isLt⟩ : Fin 1152)))
    (CA (ix2 (0 : Fin 1) (⟨(i 1).val, (i 1).isLt⟩ : Fin 1152))) (SA (ix2 (0 : Fin 1) (⟨(i 1).val, (i 1).isLt⟩ : Fin 1152)))
def arrYpp (AH CA SA : FVec Ideal ⟨2, ![1, 1152]⟩ .f32) : FVec Ideal ⟨2, ![1024, 1152]⟩ .f32 := fun i =>
  ypp (rowAt W0 W1 W2 B0 B1 B2 ⟨(i 0).val, (i 0).isLt⟩) (AH (ix2 (0 : Fin 1) (⟨(i 1).val, (i 1).isLt⟩ : Fin 1152)))
    (CA (ix2 (0 : Fin 1) (⟨(i 1).val, (i 1).isLt⟩ : Fin 1152))) (SA (ix2 (0 : Fin 1) (⟨(i 1).val, (i 1).isLt⟩ : Fin 1152)))
end K

namespace R
def resXp : FVec Ideal ⟨2, ![1024, 1025]⟩ .f32 := fun i =>
  xp (rowAt W0 W1 W2 B0 B1 B2 ⟨(i 0).val, (i 0).isLt⟩) (angle AL ⟨(i 1).val, (i 1).isLt⟩)
    (Ideal.cos (angle AL ⟨(i 1).val, (i 1).isLt⟩))
def resYp : FVec Ideal ⟨2, ![1024, 1025]⟩ .f32 := fun i =>
  yp (rowAt W0 W1 W2 B0 B1 B2 ⟨(i 0).val, (i 0).isLt⟩) (angle AL ⟨(i 1).val, (i 1).isLt⟩)
    (Ideal.sin (angle AL ⟨(i 1).val, (i 1).isLt⟩))
def resXpp : FVec Ideal ⟨2, ![1024, 1025]⟩ .f32 := fun i =>
  xpp (rowAt W0 W1 W2 B0 B1 B2 ⟨(i 0).val, (i 0).isLt⟩) (angle AL ⟨(i 1).val, (i 1).isLt⟩)
    (Ideal.cos (angle AL ⟨(i 1).val, (i 1).isLt⟩)) (Ideal.sin (angle AL ⟨(i 1).val, (i 1).isLt⟩))
def resYpp : FVec Ideal ⟨2, ![1024, 1025]⟩ .f32 := fun i =>
  ypp (rowAt W0 W1 W2 B0 B1 B2 ⟨(i 0).val, (i 0).isLt⟩) (angle AL ⟨(i 1).val, (i 1).isLt⟩)
    (Ideal.cos (angle AL ⟨(i 1).val, (i 1).isLt⟩)) (Ideal.sin (angle AL ⟨(i 1).val, (i 1).isLt⟩))
end R

end

end Cert.Mlp

end
-- ==== Proof.KernelBlock.lean ====
/-
  One grid point of the kernel, read entry by entry: what the body stores into each of its four output blocks, at
  row `p` of the block's eight and lane `q` of its 1152, is the kernel's arrangement of row `p`'s network at
  the angle in lane `q` of the padded angle row, with the cosine and sine rows read at the same lane.
-/
import proofs.«413713_j38525856645310_4_alg».proof.Proof.Gen.KernelIdeal.Frame
import proofs.«413713_j38525856645310_4_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Mlp

/-! ## Changes of layout, read at coordinates

  The body moves between a matrix [a, b], the column block [a, b, 1] and the lane block [a, b, c]: a column spread over
  the lanes, a lane row spread over rows and units, a trailing or a middle unit axis added or dropped. Each reads one
  entry of its operand. -/

section Layout
variable {α : Type}

/-- A column block [a, b, 1] spread over c lanes reads its one column at every lane. -/
private theorem bcast_col3 {a b c : ℕ} (v : (⟨3, ![a, b, 1]⟩ : Shape).Idx → α)
    (h : (⟨3, ![a, b, 1]⟩ : Shape).Broadcasts ⟨3, ![a, b, c]⟩) (p : Fin a) (j : Fin b) (q : Fin c) :
    broadcastTo ⟨3, ![a, b, c]⟩ v h (ix3 p j q) = v (ix3 p j (0 : Fin 1)) := by
  refine broadcastTo_apply v h (ix3 p j q) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

/-- A lane row [1, 1, c] spread over a rows and b units reads its lane at every row and unit. -/
private theorem bcast_lane3 {a b c : ℕ} (v : (⟨3, ![1, 1, c]⟩ : Shape).Idx → α)
    (h : (⟨3, ![1, 1, c]⟩ : Shape).Broadcasts ⟨3, ![a, b, c]⟩) (p : Fin a) (j : Fin b) (q : Fin c) :
    broadcastTo ⟨3, ![a, b, c]⟩ v h (ix3 p j q) = v (ix3 (0 : Fin 1) (0 : Fin 1) q) := by
  refine broadcastTo_apply v h (ix3 p j q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- A matrix [a, b] viewed as the column block [a, b, 1]. -/
private theorem cast_addLast {a b : ℕ} (v : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ v h (ix3 p j u) = v (ix2 p j) :=
  shapeCast_apply v h _ _ (by
    have hu : u.val = 0 := by omega
    rw [Shape.rowMajor_val_three, Shape.rowMajor_val_two]
    show p.val * b + j.val = (p.val * b + j.val) * 1 + u.val
    rw [hu, Nat.mul_one, Nat.add_zero])

/-- A block [a, 1, c] with its middle unit axis dropped. -/
private theorem cast_dropMid {a c : ℕ} (v : (⟨3, ![a, 1, c]⟩ : Shape).Idx → α)
    (h : (⟨3, ![a, 1, c]⟩ : Shape).ShapeCasts ⟨2, ![a, c]⟩) (p : Fin a) (q : Fin c) :
    shapeCast ⟨2, ![a, c]⟩ v h (ix2 p q) = v (ix3 p (0 : Fin 1) q) :=
  shapeCast_apply v h _ _ (by
    rw [Shape.rowMajor_val_three, Shape.rowMajor_val_two]
    show (p.val * 1 + 0) * c + q.val = p.val * c + q.val
    rw [Nat.mul_one, Nat.add_zero])

end Layout

/-! ## The two batched products

  Both products contract the last axis of a weight block with the unit axis of a lane block, row by row of the eight:
  entry (p, i, q) of the result, started from zero, is the sum over the 64 units k of weight (p, i, k) times lane
  entry (p, k, q). The sum is first over the product's own one-axis contraction index and is carried to the 64 units;
  each operand's coordinates at a result entry and a unit are then read axis by axis. -/

private theorem lhs_w1_0 (i : S8x64x1152.Idx) (q : dot_S8x64x64_S8x64x1152_S8x64x1152_2_1_1_2_0_0.contr.Idx) :
    (dot_S8x64x64_S8x64x1152_S8x64x1152_2_1_1_2_0_0.lhsIdx i q 0).val = (i 0).val := by
  unfold DotDims.lhsIdx
  rw [dif_pos (show (0 : Fin S8x64x64.rank) ∈ dot_S8x64x64_S8x64x1152_S8x64x1152_2_1_1_2_0_0.lhsBatch by decide)]
  rfl
private theorem lhs_w1_1 (i : S8x64x1152.Idx) (q : dot_S8x64x64_S8x64x1152_S8x64x1152_2_1_1_2_0_0.contr.Idx) :
    (dot_S8x64x64_S8x64x1152_S8x64x1152_2_1_1_2_0_0.lhsIdx i q 1).val = (i 1).val := by
  unfold DotDims.lhsIdx
  rw [dif_neg (show ¬(1 : Fin S8x64x64.rank) ∈ dot_S8x64x64_S8x64x1152_S8x64x1152_2_1_1_2_0_0.lhsBatch by decide), dif_pos (show (1 : Fin S8x64x64.rank) ∈ dot_S8x64x64_S8x64x1152_S8x64x1152_2_1_1_2_0_0.lhsNonContracting by decide)]
  rfl
private theorem lhs_w1_2 (i : S8x64x1152.Idx) (q : dot_S8x64x64_S8x64x1152_S8x64x1152_2_1_1_2_0_0.contr.Idx) :
    (dot_S8x64x64_S8x64x1152_S8x64x1152_2_1_1_2_0_0.lhsIdx i q 2).val = (q ⟨0, by decide⟩).val :=
  dot_S8x64x64_S8x64x1152_S8x64x1152_2_1_1_2_0_0.lhsIdx_val_of_single rfl i q
private theorem rhs_w1_0 (i : S8x64x1152.Idx) (q : dot_S8x64x64_S8x64x1152_S8x64x1152_2_1_1_2_0_0.contr.Idx) :
    (dot_S8x64x64_S8x64x1152_S8x64x1152_2_1_1_2_0_0.rhsIdx i q 0).val = (i 0).val := by
  unfold DotDims.rhsIdx
  rw [dif_pos (show (0 : Fin S8x64x1152.rank) ∈ dot_S8x64x64_S8x64x1152_S8x64x1152_2_1_1_2_0_0.rhsBatch by decide)]
  rfl
private theorem rhs_w1_1 (i : S8x64x1152.Idx) (q : dot_S8x64x64_S8x64x1152_S8x64x1152_2_1_1_2_0_0.contr.Idx) :
    (dot_S8x64x64_S8x64x1152_S8x64x1152_2_1_1_2_0_0.rhsIdx i q 1).val = (q ⟨0, by decide⟩).val :=
  dot_S8x64x64_S8x64x1152_S8x64x1152_2_1_1_2_0_0.rhsIdx_val_of_single rfl i q
private theorem rhs_w1_2 (i : S8x64x1152.Idx) (q : dot_S8x64x64_S8x64x1152_S8x64x1152_2_1_1_2_0_0.contr.Idx) :
    (dot_S8x64x64_S8x64x1152_S8x64x1152_2_1_1_2_0_0.rhsIdx i q 2).val = (i 2).val := by
  unfold DotDims.rhsIdx
  rw [dif_neg (show ¬(2 : Fin S8x64x1152.rank) ∈ dot_S8x64x64_S8x64x1152_S8x64x1152_2_1_1_2_0_0.rhsBatch by decide), dif_pos (show (2 : Fin S8x64x1152.rank) ∈ dot_S8x64x64_S8x64x1152_S8x64x1152_2_1_1_2_0_0.rhsNonContracting by decide)]
  rfl

/-- The hidden layer's product: a [8, 64, 64] block against a [8, 64, 1152] block. -/
private theorem matmul_w1_apply {φ₁ φ₂ : FTy} (l : FVec Ideal S8x64x64 φ₁) (r : FVec Ideal S8x64x1152 φ₂)
    (p : Fin 8) (i : Fin 64) (q : Fin 1152) :
    matmul dot_S8x64x64_S8x64x1152_S8x64x1152_2_1_1_2_0_0 none l r (constant (F := Ideal) S8x64x1152 .f32 0x00000000#32) (ix3 p i q)
      = ∑ k : Fin 64, l (ix3 p i k) * r (ix3 p k q) := by
  simp only [matmul]
  rw [Ideal.matmul_constant_zero_apply, ← Equiv.sum_comp (contrEquiv1 dot_S8x64x64_S8x64x1152_S8x64x1152_2_1_1_2_0_0 64 rfl rfl).symm]
  refine Finset.sum_congr rfl fun k _ => ?_
  have hk := contrEquiv1_symm_val dot_S8x64x64_S8x64x1152_S8x64x1152_2_1_1_2_0_0 64 rfl rfl k
  have el : dot_S8x64x64_S8x64x1152_S8x64x1152_2_1_1_2_0_0.lhsIdx (ix3 p i q) ((contrEquiv1 dot_S8x64x64_S8x64x1152_S8x64x1152_2_1_1_2_0_0 64 rfl rfl).symm k) = ix3 p i k := funext fun a => Fin.ext (by
    match a with
    | ⟨0, _⟩ => exact lhs_w1_0 _ _
    | ⟨1, _⟩ => exact lhs_w1_1 _ _
    | ⟨2, _⟩ => exact (lhs_w1_2 _ _).trans hk)
  have er : dot_S8x64x64_S8x64x1152_S8x64x1152_2_1_1_2_0_0.rhsIdx (ix3 p i q) ((contrEquiv1 dot_S8x64x64_S8x64x1152_S8x64x1152_2_1_1_2_0_0 64 rfl rfl).symm k) = ix3 p k q := funext fun a => Fin.ext (by
    match a with
    | ⟨0, _⟩ => exact rhs_w1_0 _ _
    | ⟨1, _⟩ => exact (rhs_w1_1 _ _).trans hk
    | ⟨2, _⟩ => exact rhs_w1_2 _ _)
  rw [el, er]

private theorem lhs_w2_0 (i : S8x2x1152.Idx) (q : dot_S8x2x64_S8x64x1152_S8x2x1152_2_1_1_2_0_0.contr.Idx) :
    (dot_S8x2x64_S8x64x1152_S8x2x1152_2_1_1_2_0_0.lhsIdx i q 0).val = (i 0).val := by
  unfold DotDims.lhsIdx
  rw [dif_pos (show (0 : Fin S8x2x64.rank) ∈ dot_S8x2x64_S8x64x1152_S8x2x1152_2_1_1_2_0_0.lhsBatch by decide)]
  rfl
private theorem lhs_w2_1 (i : S8x2x1152.Idx) (q : dot_S8x2x64_S8x64x1152_S8x2x1152_2_1_1_2_0_0.contr.Idx) :
    (dot_S8x2x64_S8x64x1152_S8x2x1152_2_1_1_2_0_0.lhsIdx i q 1).val = (i 1).val := by
  unfold DotDims.lhsIdx
  rw [dif_neg (show ¬(1 : Fin S8x2x64.rank) ∈ dot_S8x2x64_S8x64x1152_S8x2x1152_2_1_1_2_0_0.lhsBatch by decide), dif_pos (show (1 : Fin S8x2x64.rank) ∈ dot_S8x2x64_S8x64x1152_S8x2x1152_2_1_1_2_0_0.lhsNonContracting by decide)]
  rfl
private theorem lhs_w2_2 (i : S8x2x1152.Idx) (q : dot_S8x2x64_S8x64x1152_S8x2x1152_2_1_1_2_0_0.contr.Idx) :
    (dot_S8x2x64_S8x64x1152_S8x2x1152_2_1_1_2_0_0.lhsIdx i q 2).val = (q ⟨0, by decide⟩).val :=
  dot_S8x2x64_S8x64x1152_S8x2x1152_2_1_1_2_0_0.lhsIdx_val_of_single rfl i q
private theorem rhs_w2_0 (i : S8x2x1152.Idx) (q : dot_S8x2x64_S8x64x1152_S8x2x1152_2_1_1_2_0_0.contr.Idx) :
    (dot_S8x2x64_S8x64x1152_S8x2x1152_2_1_1_2_0_0.rhsIdx i q 0).val = (i 0).val := by
  unfold DotDims.rhsIdx
  rw [dif_pos (show (0 : Fin S8x64x1152.rank) ∈ dot_S8x2x64_S8x64x1152_S8x2x1152_2_1_1_2_0_0.rhsBatch by decide)]
  rfl
private theorem rhs_w2_1 (i : S8x2x1152.Idx) (q : dot_S8x2x64_S8x64x1152_S8x2x1152_2_1_1_2_0_0.contr.Idx) :
    (dot_S8x2x64_S8x64x1152_S8x2x1152_2_1_1_2_0_0.rhsIdx i q 1).val = (q ⟨0, by decide⟩).val :=
  dot_S8x2x64_S8x64x1152_S8x2x1152_2_1_1_2_0_0.rhsIdx_val_of_single rfl i q
private theorem rhs_w2_2 (i : S8x2x1152.Idx) (q : dot_S8x2x64_S8x64x1152_S8x2x1152_2_1_1_2_0_0.contr.Idx) :
    (dot_S8x2x64_S8x64x1152_S8x2x1152_2_1_1_2_0_0.rhsIdx i q 2).val = (i 2).val := by
  unfold DotDims.rhsIdx
  rw [dif_neg (show ¬(2 : Fin S8x64x1152.rank) ∈ dot_S8x2x64_S8x64x1152_S8x2x1152_2_1_1_2_0_0.rhsBatch by decide), dif_pos (show (2 : Fin S8x64x1152.rank) ∈ dot_S8x2x64_S8x64x1152_S8x2x1152_2_1_1_2_0_0.rhsNonContracting by decide)]
  rfl

/-- The output layer's product: a [8, 2, 64] block against a [8, 64, 1152] block. -/
private theorem matmul_w2_apply {φ₁ φ₂ : FTy} (l : FVec Ideal S8x2x64 φ₁) (r : FVec Ideal S8x64x1152 φ₂)
    (p : Fin 8) (i : Fin 2) (q : Fin 1152) :
    matmul dot_S8x2x64_S8x64x1152_S8x2x1152_2_1_1_2_0_0 none l r (constant (F := Ideal) S8x2x1152 .f32 0x00000000#32) (ix3 p i q)
      = ∑ k : Fin 64, l (ix3 p i k) * r (ix3 p k q) := by
  simp only [matmul]
  rw [Ideal.matmul_constant_zero_apply, ← Equiv.sum_comp (contrEquiv1 dot_S8x2x64_S8x64x1152_S8x2x1152_2_1_1_2_0_0 64 rfl rfl).symm]
  refine Finset.sum_congr rfl fun k _ => ?_
  have hk := contrEquiv1_symm_val dot_S8x2x64_S8x64x1152_S8x2x1152_2_1_1_2_0_0 64 rfl rfl k
  have el : dot_S8x2x64_S8x64x1152_S8x2x1152_2_1_1_2_0_0.lhsIdx (ix3 p i q) ((contrEquiv1 dot_S8x2x64_S8x64x1152_S8x2x1152_2_1_1_2_0_0 64 rfl rfl).symm k) = ix3 p i k := funext fun a => Fin.ext (by
    match a with
    | ⟨0, _⟩ => exact lhs_w2_0 _ _
    | ⟨1, _⟩ => exact lhs_w2_1 _ _
    | ⟨2, _⟩ => exact (lhs_w2_2 _ _).trans hk)
  have er : dot_S8x2x64_S8x64x1152_S8x2x1152_2_1_1_2_0_0.rhsIdx (ix3 p i q) ((contrEquiv1 dot_S8x2x64_S8x64x1152_S8x2x1152_2_1_1_2_0_0 64 rfl rfl).symm k) = ix3 p k q := funext fun a => Fin.ext (by
    match a with
    | ⟨0, _⟩ => exact rhs_w2_0 _ _
    | ⟨1, _⟩ => exact (rhs_w2_1 _ _).trans hk
    | ⟨2, _⟩ => exact rhs_w2_2 _ _)
  rw [el, er]

/-! ## The body's values, entry by entry

  Each intermediate value of the body, read at row p, unit or output i and lane q, is the matching quantity of row p's
  network at the angle in lane q. -/

section Payloads
variable (x0 : Vec Ideal S8x64x1 .f32) (x1 : Vec Ideal S8x64x64 .f32) (x2 : Vec Ideal S8x2x64 .f32)
  (x3 x4 : Vec Ideal S8x64 .f32) (x5 : Vec Ideal S8x2 .f32) (x6 : Vec Ideal S1x1152 .f32)

/-- The first hidden layer: the weight column times the angle row, plus the bias column, through tanh. -/
private theorem pay4_apply (p : Fin 8) (j : Fin 64) (q : Fin 1152) :
    k0_pay4 (F := Ideal) x0 x3 x6 (ix3 p j q)
      = K.h0 (rowAt8 x0 x1 x2 x3 x4 x5 p) (x6 (ix2 (0 : Fin 1) q)) j := by
  unfold k0_pay4
  show Ideal.tanh (broadcastTo S8x64x1152 x0 _ (ix3 p j q)
      * broadcastTo S8x64x1152 (shapeCast S1x1x1152 (shapeCast S1x1152 x6 _) _) _ (ix3 p j q)
      + broadcastTo S8x64x1152 (shapeCast S8x64x1 x3 _) _ (ix3 p j q))
    = Ideal.tanh (x0 (ix3 p j (0 : Fin 1)) * x6 (ix2 (0 : Fin 1) q) + x3 (ix2 p j))
  rw [bcast_col3, bcast_lane3, bcast_col3, cast_addLast, shapeCast_ab_1ab_apply, shapeCast_self]

/-- The derivative entering the second layer: the hidden weights against the first layer's derivative. -/
private theorem pay6_apply (p : Fin 8) (i : Fin 64) (q : Fin 1152) :
    k0_pay6 (F := Ideal) x0 x1 x3 x6 (ix3 p i q)
      = K.dpre1 (rowAt8 x0 x1 x2 x3 x4 x5 p) (x6 (ix2 (0 : Fin 1) q)) i := by
  unfold k0_pay6
  refine (matmul_w1_apply _ _ p i q).trans ?_
  unfold K.dpre1
  refine Finset.sum_congr rfl fun k _ => ?_
  show x1 (ix3 p i k)
      * ((Ideal.ofBits .f32 0x3F800000#32
          - k0_pay4 (F := Ideal) x0 x3 x6 (ix3 p k q) * k0_pay4 (F := Ideal) x0 x3 x6 (ix3 p k q))
        * broadcastTo S8x64x1152 x0 _ (ix3 p k q))
    = x1 (ix3 p i k)
      * ((c1 - K.h0 (rowAt8 x0 x1 x2 x3 x4 x5 p) (x6 (ix2 (0 : Fin 1) q)) k
            * K.h0 (rowAt8 x0 x1 x2 x3 x4 x5 p) (x6 (ix2 (0 : Fin 1) q)) k)
        * x0 (ix3 p k (0 : Fin 1)))
  rw [pay4_apply x0 x1 x2 x3 x4 x5 x6 p k q, bcast_col3]

/-- The second hidden layer: the hidden weights against the first layer, plus the bias column, through tanh. -/
private theorem pay7_apply (p : Fin 8) (i : Fin 64) (q : Fin 1152) :
    k0_pay7 (F := Ideal) x0 x1 x3 x4 x6 (ix3 p i q)
      = K.h1 (rowAt8 x0 x1 x2 x3 x4 x5 p) (x6 (ix2 (0 : Fin 1) q)) i := by
  unfold k0_pay7
  show Ideal.tanh (matmul dot_S8x64x64_S8x64x1152_S8x64x1152_2_1_1_2_0_0 none (k0_pay5 x1)
        (truncf .bf16 (k0_pay4 (F := Ideal) x0 x3 x6) _) (constant (F := Ideal) S8x64x1152 .f32 0x00000000#32) (ix3 p i q)
      + broadcastTo S8x64x1152 (shapeCast S8x64x1 x4 _) _ (ix3 p i q))
    = Ideal.tanh ((∑ k : Fin 64, x1 (ix3 p i k) * K.h0 (rowAt8 x0 x1 x2 x3 x4 x5 p) (x6 (ix2 (0 : Fin 1) q)) k)
      + x4 (ix2 p i))
  rw [matmul_w1_apply, bcast_col3, cast_addLast]
  refine congrArg (fun s => Ideal.tanh (s + x4 (ix2 p i))) (Finset.sum_congr rfl fun k _ => ?_)
  show x1 (ix3 p i k) * k0_pay4 (F := Ideal) x0 x3 x6 (ix3 p k q) = _
  rw [pay4_apply x0 x1 x2 x3 x4 x5 x6 p k q]

/-- Its square. -/
private theorem pay8_apply (p : Fin 8) (i : Fin 64) (q : Fin 1152) :
    k0_pay8 (F := Ideal) x0 x1 x3 x4 x6 (ix3 p i q)
      = K.h1 (rowAt8 x0 x1 x2 x3 x4 x5 p) (x6 (ix2 (0 : Fin 1) q)) i
        * K.h1 (rowAt8 x0 x1 x2 x3 x4 x5 p) (x6 (ix2 (0 : Fin 1) q)) i := by
  unfold k0_pay8
  show k0_pay7 (F := Ideal) x0 x1 x3 x4 x6 (ix3 p i q) * k0_pay7 (F := Ideal) x0 x1 x3 x4 x6 (ix3 p i q) = _
  rw [pay7_apply x0 x1 x2 x3 x4 x5 x6 p i q]

/-- The output layer over any lane block: the output weights against the block, plus the bias column. -/
private theorem pay10_raw (v33 : FVec Ideal S8x64x1152 .f32) (p : Fin 8) (i : Fin 2) (q : Fin 1152) :
    k0_pay10 (F := Ideal) x2 x5 v33 (ix3 p i q)
      = (∑ k : Fin 64, x2 (ix3 p i k) * v33 (ix3 p k q)) + x5 (ix2 p i) := by
  unfold k0_pay10
  show matmul dot_S8x2x64_S8x64x1152_S8x2x1152_2_1_1_2_0_0 none (k0_pay9 x2) (truncf .bf16 v33 _)
        (constant (F := Ideal) S8x2x1152 .f32 0x00000000#32) (ix3 p i q)
      + broadcastTo S8x2x1152 (shapeCast S8x2x1 x5 _) _ (ix3 p i q) = _
  rw [matmul_w2_apply, bcast_col3, cast_addLast]
  rfl

/-- The two linear outputs. -/
private theorem pay10_apply (p : Fin 8) (i : Fin 2) (q : Fin 1152) :
    k0_pay10 (F := Ideal) x2 x5 (k0_pay7 (F := Ideal) x0 x1 x3 x4 x6) (ix3 p i q) = K.lin (rowAt8 x0 x1 x2 x3 x4 x5 p) (x6 (ix2 (0 : Fin 1) q)) i := by
  refine (pay10_raw x2 x5 _ p i q).trans ?_
  show (∑ k : Fin 64, x2 (ix3 p i k) * (k0_pay7 (F := Ideal) x0 x1 x3 x4 x6) (ix3 p k q)) + x5 (ix2 p i)
    = (∑ k : Fin 64, x2 (ix3 p i k) * K.h1 (rowAt8 x0 x1 x2 x3 x4 x5 p) (x6 (ix2 (0 : Fin 1) q)) k) + x5 (ix2 p i)
  refine congrArg (· + x5 (ix2 p i)) (Finset.sum_congr rfl fun k _ => ?_)
  rw [pay7_apply x0 x1 x2 x3 x4 x5 x6 p k q]

/-- The output weights against the derivative of any lane block through tanh, given the block's square. -/
private theorem pay11_raw (v32 v34 : FVec Ideal S8x64x1152 .f32) (p : Fin 8) (i : Fin 2) (q : Fin 1152) :
    k0_pay11 (F := Ideal) x2 v32 v34 (ix3 p i q)
      = ∑ k : Fin 64, x2 (ix3 p i k) * ((c1 - v34 (ix3 p k q)) * v32 (ix3 p k q)) := by
  unfold k0_pay11
  refine (matmul_w2_apply _ _ p i q).trans ?_
  rfl

/-- The derivatives of the two linear outputs. -/
private theorem pay11_apply (p : Fin 8) (i : Fin 2) (q : Fin 1152) :
    k0_pay11 (F := Ideal) x2 (k0_pay6 (F := Ideal) x0 x1 x3 x6) (k0_pay8 (F := Ideal) x0 x1 x3 x4 x6) (ix3 p i q) = K.dlin (rowAt8 x0 x1 x2 x3 x4 x5 p) (x6 (ix2 (0 : Fin 1) q)) i := by
  refine (pay11_raw x2 _ _ p i q).trans ?_
  show (∑ k : Fin 64, x2 (ix3 p i k) * ((c1 - (k0_pay8 (F := Ideal) x0 x1 x3 x4 x6) (ix3 p k q)) * (k0_pay6 (F := Ideal) x0 x1 x3 x6) (ix3 p k q)))
    = ∑ k : Fin 64, x2 (ix3 p i k) * ((c1 - K.h1 (rowAt8 x0 x1 x2 x3 x4 x5 p) (x6 (ix2 (0 : Fin 1) q)) k * K.h1 (rowAt8 x0 x1 x2 x3 x4 x5 p) (x6 (ix2 (0 : Fin 1) q)) k) * K.dpre1 (rowAt8 x0 x1 x2 x3 x4 x5 p) (x6 (ix2 (0 : Fin 1) q)) k)
  refine Finset.sum_congr rfl fun k _ => ?_
  rw [pay8_apply x0 x1 x2 x3 x4 x5 x6 p k q, pay6_apply x0 x1 x2 x3 x4 x5 x6 p k q]

/-- The first linear output, cut out of the pair and its unit axis dropped. -/
private theorem pay12_apply (p : Fin 8) (q : Fin 1152) :
    k0_pay12 (F := Ideal) x2 x5 (k0_pay7 (F := Ideal) x0 x1 x3 x4 x6) (ix2 p q) = K.lin (rowAt8 x0 x1 x2 x3 x4 x5 p) (x6 (ix2 (0 : Fin 1) q)) 0 := by
  unfold k0_pay12
  show shapeCast S8x1152 (extractStridedSlice S8x1x1152 ![0, 0, 0] (k0_pay10 (F := Ideal) x2 x5 (k0_pay7 (F := Ideal) x0 x1 x3 x4 x6)) _) _ (ix2 p q) = _
  rw [cast_dropMid, slice3_axis1_apply 0 _ _ p (0 : Fin 1) q (0 : Fin 2) rfl]
  exact pay10_apply x0 x1 x2 x3 x4 x5 x6 p 0 q

/-- The second linear output. -/
private theorem pay13_apply (p : Fin 8) (q : Fin 1152) :
    k0_pay13 (F := Ideal) x2 x5 (k0_pay7 (F := Ideal) x0 x1 x3 x4 x6) (ix2 p q) = K.lin (rowAt8 x0 x1 x2 x3 x4 x5 p) (x6 (ix2 (0 : Fin 1) q)) 1 := by
  unfold k0_pay13
  show shapeCast S8x1152 (extractStridedSlice S8x1x1152 ![0, 1, 0] (k0_pay10 (F := Ideal) x2 x5 (k0_pay7 (F := Ideal) x0 x1 x3 x4 x6)) _) _ (ix2 p q) = _
  rw [cast_dropMid, slice3_axis1_apply 1 _ _ p (0 : Fin 1) q (1 : Fin 2) rfl]
  exact pay10_apply x0 x1 x2 x3 x4 x5 x6 p 1 q

/-- The first output squared. -/
private theorem pay14_apply (p : Fin 8) (q : Fin 1152) :
    k0_pay14 (F := Ideal) x2 x5 (k0_pay7 (F := Ideal) x0 x1 x3 x4 x6) (ix2 p q) = K.lin (rowAt8 x0 x1 x2 x3 x4 x5 p) (x6 (ix2 (0 : Fin 1) q)) 0 * K.lin (rowAt8 x0 x1 x2 x3 x4 x5 p) (x6 (ix2 (0 : Fin 1) q)) 0 := by
  unfold k0_pay14
  show k0_pay12 (F := Ideal) x2 x5 (k0_pay7 (F := Ideal) x0 x1 x3 x4 x6) (ix2 p q) * k0_pay12 (F := Ideal) x2 x5 (k0_pay7 (F := Ideal) x0 x1 x3 x4 x6) (ix2 p q) = _
  rw [pay12_apply x0 x1 x2 x3 x4 x5 x6 p q]

/-- The second output squared. -/
private theorem pay15_apply (p : Fin 8) (q : Fin 1152) :
    k0_pay15 (F := Ideal) x2 x5 (k0_pay7 (F := Ideal) x0 x1 x3 x4 x6) (ix2 p q) = K.lin (rowAt8 x0 x1 x2 x3 x4 x5 p) (x6 (ix2 (0 : Fin 1) q)) 1 * K.lin (rowAt8 x0 x1 x2 x3 x4 x5 p) (x6 (ix2 (0 : Fin 1) q)) 1 := by
  unfold k0_pay15
  show k0_pay13 (F := Ideal) x2 x5 (k0_pay7 (F := Ideal) x0 x1 x3 x4 x6) (ix2 p q) * k0_pay13 (F := Ideal) x2 x5 (k0_pay7 (F := Ideal) x0 x1 x3 x4 x6) (ix2 p q) = _
  rw [pay13_apply x0 x1 x2 x3 x4 x5 x6 p q]

/-- The derivative of the second output's square: twice the output, times its derivative. -/
private theorem pay16_apply (p : Fin 8) (q : Fin 1152) :
    k0_pay16 (F := Ideal) x2 x5 (k0_pay6 (F := Ideal) x0 x1 x3 x6) (k0_pay7 (F := Ideal) x0 x1 x3 x4 x6) (k0_pay8 (F := Ideal) x0 x1 x3 x4 x6) (ix2 p q)
      = (c2 * K.lin (rowAt8 x0 x1 x2 x3 x4 x5 p) (x6 (ix2 (0 : Fin 1) q)) 1) * K.dlin (rowAt8 x0 x1 x2 x3 x4 x5 p) (x6 (ix2 (0 : Fin 1) q)) 1 := by
  unfold k0_pay16
  show (Ideal.ofBits .f32 0x40000000#32 * k0_pay13 (F := Ideal) x2 x5 (k0_pay7 (F := Ideal) x0 x1 x3 x4 x6) (ix2 p q))
      * shapeCast S8x1152 (extractStridedSlice S8x1x1152 ![0, 1, 0] (k0_pay11 (F := Ideal) x2 (k0_pay6 (F := Ideal) x0 x1 x3 x6) (k0_pay8 (F := Ideal) x0 x1 x3 x4 x6)) _) _ (ix2 p q) = _
  rw [cast_dropMid, slice3_axis1_apply 1 _ _ p (0 : Fin 1) q (1 : Fin 2) rfl, pay13_apply x0 x1 x2 x3 x4 x5 x6 p q,
    pay11_apply x0 x1 x2 x3 x4 x5 x6 p 1 q]

/-- The first result: the first output's square against the cosine row less one. -/
private theorem pay18_apply (v9 : FVec Ideal S1x1152 .f32) (p : Fin 8) (q : Fin 1152) :
    k0_pay18 (F := Ideal) x2 x5 v9 (k0_pay7 (F := Ideal) x0 x1 x3 x4 x6) (ix2 p q) = K.xp (rowAt8 x0 x1 x2 x3 x4 x5 p) (x6 (ix2 (0 : Fin 1) q)) (v9 (ix2 (0 : Fin 1) q)) := by
  unfold k0_pay18
  show k0_pay14 (F := Ideal) x2 x5 (k0_pay7 (F := Ideal) x0 x1 x3 x4 x6) (ix2 p q) * broadcastTo S8x1152 (k0_pay17 (F := Ideal) v9) _ (ix2 p q) = _
  rw [broadcastTo_1b_ab_apply, pay14_apply x0 x1 x2 x3 x4 x5 x6 p q]
  rfl

/-- The second result: the second output's square against the sine row. -/
private theorem pay19_apply (v11 : FVec Ideal S1x1152 .f32) (p : Fin 8) (q : Fin 1152) :
    k0_pay19 (F := Ideal) x2 x5 v11 (k0_pay7 (F := Ideal) x0 x1 x3 x4 x6) (ix2 p q) = K.yp (rowAt8 x0 x1 x2 x3 x4 x5 p) (x6 (ix2 (0 : Fin 1) q)) (v11 (ix2 (0 : Fin 1) q)) := by
  unfold k0_pay19
  show k0_pay15 (F := Ideal) x2 x5 (k0_pay7 (F := Ideal) x0 x1 x3 x4 x6) (ix2 p q) * broadcastTo S8x1152 v11 _ (ix2 p q) = _
  rw [broadcastTo_1b_ab_apply, pay15_apply x0 x1 x2 x3 x4 x5 x6 p q]
  rfl

/-- The third result. -/
private theorem pay20_apply (v9 v11 : FVec Ideal S1x1152 .f32) (p : Fin 8) (q : Fin 1152) :
    k0_pay20 (F := Ideal) x2 x5 v9 v11 (k0_pay6 (F := Ideal) x0 x1 x3 x6) (k0_pay7 (F := Ideal) x0 x1 x3 x4 x6) (k0_pay8 (F := Ideal) x0 x1 x3 x4 x6) (ix2 p q)
      = K.xpp (rowAt8 x0 x1 x2 x3 x4 x5 p) (x6 (ix2 (0 : Fin 1) q)) (v9 (ix2 (0 : Fin 1) q)) (v11 (ix2 (0 : Fin 1) q)) := by
  unfold k0_pay20
  show (Ideal.ofBits .f32 0x00000000#32 - k0_pay14 (F := Ideal) x2 x5 (k0_pay7 (F := Ideal) x0 x1 x3 x4 x6) (ix2 p q)) * broadcastTo S8x1152 v11 _ (ix2 p q)
      + ((Ideal.ofBits .f32 0x40000000#32 * k0_pay12 (F := Ideal) x2 x5 (k0_pay7 (F := Ideal) x0 x1 x3 x4 x6) (ix2 p q))
          * shapeCast S8x1152 (extractStridedSlice S8x1x1152 ![0, 0, 0] (k0_pay11 (F := Ideal) x2 (k0_pay6 (F := Ideal) x0 x1 x3 x6) (k0_pay8 (F := Ideal) x0 x1 x3 x4 x6)) _) _ (ix2 p q))
        * broadcastTo S8x1152 (k0_pay17 (F := Ideal) v9) _ (ix2 p q) = _
  rw [broadcastTo_1b_ab_apply, broadcastTo_1b_ab_apply, cast_dropMid,
    slice3_axis1_apply 0 _ _ p (0 : Fin 1) q (0 : Fin 2) rfl, pay14_apply x0 x1 x2 x3 x4 x5 x6 p q, pay12_apply x0 x1 x2 x3 x4 x5 x6 p q,
    pay11_apply x0 x1 x2 x3 x4 x5 x6 p 0 q]
  rfl

/-- The fourth result. -/
private theorem pay1_apply (v9 v11 : FVec Ideal S1x1152 .f32) (p : Fin 8) (q : Fin 1152) :
    k0_pay1 (F := Ideal) v11 (k0_pay15 (F := Ideal) x2 x5 (k0_pay7 (F := Ideal) x0 x1 x3 x4 x6)) (k0_pay16 (F := Ideal) x2 x5 (k0_pay6 (F := Ideal) x0 x1 x3 x6) (k0_pay7 (F := Ideal) x0 x1 x3 x4 x6) (k0_pay8 (F := Ideal) x0 x1 x3 x4 x6))
        (k0_pay21 (F := Ideal) v9) (ix2 p q)
      = K.ypp (rowAt8 x0 x1 x2 x3 x4 x5 p) (x6 (ix2 (0 : Fin 1) q)) (v9 (ix2 (0 : Fin 1) q)) (v11 (ix2 (0 : Fin 1) q)) := by
  unfold k0_pay1
  show k0_pay15 (F := Ideal) x2 x5 (k0_pay7 (F := Ideal) x0 x1 x3 x4 x6) (ix2 p q) * k0_pay21 (F := Ideal) v9 (ix2 p q)
      + k0_pay16 (F := Ideal) x2 x5 (k0_pay6 (F := Ideal) x0 x1 x3 x6) (k0_pay7 (F := Ideal) x0 x1 x3 x4 x6) (k0_pay8 (F := Ideal) x0 x1 x3 x4 x6) (ix2 p q) * broadcastTo S8x1152 v11 _ (ix2 p q) = _
  rw [broadcastTo_1b_ab_apply, pay15_apply x0 x1 x2 x3 x4 x5 x6 p q, pay16_apply x0 x1 x2 x3 x4 x5 x6 p q]
  unfold k0_pay21
  show _ * broadcastTo S8x1152 v9 _ (ix2 p q) + _ = _
  rw [broadcastTo_1b_ab_apply]
  rfl

/-- The cosine row as the body keeps it: the row itself. -/
private theorem pay2_eq (v : Vec Ideal S1x1152 .f32) : k0_pay2 (F := Ideal) v = v := by
  unfold k0_pay2
  exact shapeCast_self _ _

/-- The sine row as the body keeps it: the row itself. -/
private theorem pay3_eq (v : Vec Ideal S1x1152 .f32) : k0_pay3 (F := Ideal) v = v := by
  unfold k0_pay3
  exact shapeCast_self _ _

end Payloads

/-! ## The four output blocks

  The body reads every input block whole and writes every output block whole, once: the block it leaves is the value
  it stored, and each loaded block is the input block itself. -/

private theorem hz2 : (![0, 0] : Fin 2 → Nat) = fun _ => 0 := funext fun a => by
  match a with
  | ⟨0, _⟩ => rfl
  | ⟨1, _⟩ => rfl

private theorem hz3 : (![0, 0, 0] : Fin 3 → Nat) = fun _ => 0 := funext fun a => by
  match a with
  | ⟨0, _⟩ => rfl
  | ⟨1, _⟩ => rfl
  | ⟨2, _⟩ => rfl

theorem out9_apply (x0 : Vec Ideal S8x64x1 .f32) (x1 : Vec Ideal S8x64x64 .f32) (x2 : Vec Ideal S8x2x64 .f32)
    (x3 x4 : Vec Ideal S8x64 .f32) (x5 : Vec Ideal S8x2 .f32) (x6 x7 x8 : Vec Ideal S1x1152 .f32) (p : Fin 8) (q : Fin 1152) :
    Gen.out0_9 (F := Ideal) x0 x1 x2 x3 x4 x5 x6 x7 x8 (ix2 p q)
      = K.xp (rowAt8 x0 x1 x2 x3 x4 x5 p) (x6 (ix2 (0 : Fin 1) q)) (x7 (ix2 (0 : Fin 1) q)) := by
  unfold Gen.out0_9
  rw [View.canon_unit_zero hz2]
  simp only [View.ld_unit_zero (S := S8x64x1) hz3, View.ld_unit_zero (S := S8x64x64) hz3, View.ld_unit_zero (S := S8x2x64) hz3,
    View.ld_unit_zero (S := S8x64) hz2, View.ld_unit_zero (S := S8x2) hz2, View.ld_unit_zero (S := S1x1152) hz2]
  refine (pay18_apply x0 x1 x2 x3 x4 x5 x6 (k0_pay2 (F := Ideal) x7) p q).trans ?_
  rw [pay2_eq]

theorem out10_apply (x0 : Vec Ideal S8x64x1 .f32) (x1 : Vec Ideal S8x64x64 .f32) (x2 : Vec Ideal S8x2x64 .f32)
    (x3 x4 : Vec Ideal S8x64 .f32) (x5 : Vec Ideal S8x2 .f32) (x6 x7 x8 : Vec Ideal S1x1152 .f32) (p : Fin 8) (q : Fin 1152) :
    Gen.out0_10 (F := Ideal) x0 x1 x2 x3 x4 x5 x6 x7 x8 (ix2 p q)
      = K.yp (rowAt8 x0 x1 x2 x3 x4 x5 p) (x6 (ix2 (0 : Fin 1) q)) (x8 (ix2 (0 : Fin 1) q)) := by
  unfold Gen.out0_10
  rw [View.canon_unit_zero hz2]
  simp only [View.ld_unit_zero (S := S8x64x1) hz3, View.ld_unit_zero (S := S8x64x64) hz3, View.ld_unit_zero (S := S8x2x64) hz3,
    View.ld_unit_zero (S := S8x64) hz2, View.ld_unit_zero (S := S8x2) hz2, View.ld_unit_zero (S := S1x1152) hz2]
  refine (pay19_apply x0 x1 x2 x3 x4 x5 x6 (k0_pay3 (F := Ideal) x8) p q).trans ?_
  rw [pay3_eq]

theorem out11_apply (x0 : Vec Ideal S8x64x1 .f32) (x1 : Vec Ideal S8x64x64 .f32) (x2 : Vec Ideal S8x2x64 .f32)
    (x3 x4 : Vec Ideal S8x64 .f32) (x5 : Vec Ideal S8x2 .f32) (x6 x7 x8 : Vec Ideal S1x1152 .f32) (p : Fin 8) (q : Fin 1152) :
    Gen.out0_11 (F := Ideal) x0 x1 x2 x3 x4 x5 x6 x7 x8 (ix2 p q)
      = K.xpp (rowAt8 x0 x1 x2 x3 x4 x5 p) (x6 (ix2 (0 : Fin 1) q)) (x7 (ix2 (0 : Fin 1) q)) (x8 (ix2 (0 : Fin 1) q)) := by
  unfold Gen.out0_11
  rw [View.canon_unit_zero hz2]
  simp only [View.ld_unit_zero (S := S8x64x1) hz3, View.ld_unit_zero (S := S8x64x64) hz3, View.ld_unit_zero (S := S8x2x64) hz3,
    View.ld_unit_zero (S := S8x64) hz2, View.ld_unit_zero (S := S8x2) hz2, View.ld_unit_zero (S := S1x1152) hz2]
  refine (pay20_apply x0 x1 x2 x3 x4 x5 x6 (k0_pay2 (F := Ideal) x7) (k0_pay3 (F := Ideal) x8) p q).trans ?_
  rw [pay2_eq, pay3_eq]

theorem out12_apply (x0 : Vec Ideal S8x64x1 .f32) (x1 : Vec Ideal S8x64x64 .f32) (x2 : Vec Ideal S8x2x64 .f32)
    (x3 x4 : Vec Ideal S8x64 .f32) (x5 : Vec Ideal S8x2 .f32) (x6 x7 x8 : Vec Ideal S1x1152 .f32) (p : Fin 8) (q : Fin 1152) :
    Gen.out0_12 (F := Ideal) x0 x1 x2 x3 x4 x5 x6 x7 x8 (ix2 p q)
      = K.ypp (rowAt8 x0 x1 x2 x3 x4 x5 p) (x6 (ix2 (0 : Fin 1) q)) (x7 (ix2 (0 : Fin 1) q)) (x8 (ix2 (0 : Fin 1) q)) := by
  unfold Gen.out0_12
  rw [View.canon_unit_zero hz2]
  simp only [View.ld_unit_zero (S := S8x64x1) hz3, View.ld_unit_zero (S := S8x64x64) hz3, View.ld_unit_zero (S := S8x2x64) hz3,
    View.ld_unit_zero (S := S8x64) hz2, View.ld_unit_zero (S := S8x2) hz2, View.ld_unit_zero (S := S1x1152) hz2]
  refine (pay1_apply x0 x1 x2 x3 x4 x5 x6 (k0_pay2 (F := Ideal) x7) (k0_pay3 (F := Ideal) x8) p q).trans ?_
  rw [pay2_eq, pay3_eq]

end Cert.KernelIdeal.Block

end
-- ==== Proof.KernelArray.lean ====
/-
  The kernel's four output arrays after its run. Grid point `t` writes rows 8t … 8t+7 of each, all 1152 columns;
  the 128 points cover every row, so each array is the kernel's arrangement at (row, column) of the parameter
  arrays and of the three angle rows as the region finds them.
-/
import proofs.«413713_j38525856645310_4_alg».proof.Proof.KernelBlock

noncomputable section

namespace Cert.KernelIdeal.Arr

open Cert.KernelIdeal Cert.KernelIdeal.Gen Idealize.ShloMosaic Idealize.ShloMosaic.ValueIdx Cert.Mlp
open Idealize.SL.Sem

variable (m : (ℓ : Loc nD τ sig) → Buf (Elt Ideal) ℓ)

/-! ## Where each window's block sits -/

/-- The six parameter windows step one block of eight rows per grid point and never move on the other axes. -/
private theorem idx_params : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The three angle rows are read whole at every point. -/
private theorem idx_rows : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The four output windows step one block of eight rows per grid point, all columns. -/
private theorem idx_outs : ∀ t : Fin cfg0.N,
    (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## The input blocks, entry by entry

  At point `t` the block of a parameter window holds rows 8t … 8t+7 of its array, every other axis whole; the block
  of an angle-row window is the whole row. -/

private theorem blk0_apply (c : Dev nD) (t : Fin cfg0.N) (p : Fin 8) (j : Fin 64) (n : Fin 1024) (hn : n.val = 8 * t.val + p.val) :
    (iblk m c 0 t : Vec Ideal S8x64x1 .f32) (ix3 p j (0 : Fin 1))
      = (V m c main_arg1 : S1024x64x1.Idx → EReal) (ix3 n j (0 : Fin 1)) := by
  obtain ⟨⟨e0, e1, e2⟩, -⟩ := idx_params t
  unfold iblk
  rw [View.read_apply]
  show V m c main_arg1 (((cfg0.win 0).blk t).view.emb (ix3 p j (0 : Fin 1))) = V m c main_arg1 (ix3 n j (0 : Fin 1))
  refine congrArg _ (funext fun a => Fin.ext ?_)
  match a with
  | ⟨0, _⟩ => show win0_0.index t (0 : Fin 3) * 8 + 1 * p.val = n.val; omega
  | ⟨1, _⟩ => show win0_0.index t (1 : Fin 3) * 64 + 1 * j.val = j.val; omega
  | ⟨2, _⟩ => show win0_0.index t (2 : Fin 3) * 1 + 1 * 0 = 0; omega

private theorem blk1_apply (c : Dev nD) (t : Fin cfg0.N) (p : Fin 8) (i j : Fin 64) (n : Fin 1024) (hn : n.val = 8 * t.val + p.val) :
    (iblk m c 1 t : Vec Ideal S8x64x64 .f32) (ix3 p i j)
      = (V m c main_arg2 : S1024x64x64.Idx → EReal) (ix3 n i j) := by
  obtain ⟨-, ⟨e0, e1, e2⟩, -⟩ := idx_params t
  unfold iblk
  rw [View.read_apply]
  show V m c main_arg2 (((cfg0.win 1).blk t).view.emb (ix3 p i j)) = V m c main_arg2 (ix3 n i j)
  refine congrArg _ (funext fun a => Fin.ext ?_)
  match a with
  | ⟨0, _⟩ => show win0_1.index t (0 : Fin 3) * 8 + 1 * p.val = n.val; omega
  | ⟨1, _⟩ => show win0_1.index t (1 : Fin 3) * 64 + 1 * i.val = i.val; omega
  | ⟨2, _⟩ => show win0_1.index t (2 : Fin 3) * 64 + 1 * j.val = j.val; omega

private theorem blk2_apply (c : Dev nD) (t : Fin cfg0.N) (p : Fin 8) (i : Fin 2) (j : Fin 64) (n : Fin 1024) (hn : n.val = 8 * t.val + p.val) :
    (iblk m c 2 t : Vec Ideal S8x2x64 .f32) (ix3 p i j)
      = (V m c main_arg3 : S1024x2x64.Idx → EReal) (ix3 n i j) := by
  obtain ⟨-, -, ⟨e0, e1, e2⟩, -⟩ := idx_params t
  unfold iblk
  rw [View.read_apply]
  show V m c main_arg3 (((cfg0.win 2).blk t).view.emb (ix3 p i j)) = V m c main_arg3 (ix3 n i j)
  refine congrArg _ (funext fun a => Fin.ext ?_)
  match a with
  | ⟨0, _⟩ => show win0_2.index t (0 : Fin 3) * 8 + 1 * p.val = n.val; omega
  | ⟨1, _⟩ => show win0_2.index t (1 : Fin 3) * 2 + 1 * i.val = i.val; omega
  | ⟨2, _⟩ => show win0_2.index t (2 : Fin 3) * 64 + 1 * j.val = j.val; omega

private theorem blk3_apply (c : Dev nD) (t : Fin cfg0.N) (p : Fin 8) (j : Fin 64) (n : Fin 1024) (hn : n.val = 8 * t.val + p.val) :
    (iblk m c 3 t : Vec Ideal S8x64 .f32) (ix2 p j)
      = (V m c main_arg4 : S1024x64.Idx → EReal) (ix2 n j) := by
  obtain ⟨-, -, -, ⟨e0, e1⟩, -⟩ := idx_params t
  unfold iblk
  rw [View.read_apply]
  show V m c main_arg4 (((cfg0.win 3).blk t).view.emb (ix2 p j)) = V m c main_arg4 (ix2 n j)
  refine congrArg _ (funext fun a => Fin.ext ?_)
  match a with
  | ⟨0, _⟩ => show win0_3.index t (0 : Fin 2) * 8 + 1 * p.val = n.val; omega
  | ⟨1, _⟩ => show win0_3.index t (1 : Fin 2) * 64 + 1 * j.val = j.val; omega

private theorem blk4_apply (c : Dev nD) (t : Fin cfg0.N) (p : Fin 8) (j : Fin 64) (n : Fin 1024) (hn : n.val = 8 * t.val + p.val) :
    (iblk m c 4 t : Vec Ideal S8x64 .f32) (ix2 p j)
      = (V m c main_arg5 : S1024x64.Idx → EReal) (ix2 n j) := by
  obtain ⟨-, -, -, -, ⟨e0, e1⟩, -⟩ := idx_params t
  unfold iblk
  rw [View.read_apply]
  show V m c main_arg5 (((cfg0.win 4).blk t).view.emb (ix2 p j)) = V m c main_arg5 (ix2 n j)
  refine congrArg _ (funext fun a => Fin.ext ?_)
  match a with
  | ⟨0, _⟩ => show win0_4.index t (0 : Fin 2) * 8 + 1 * p.val = n.val; omega
  | ⟨1, _⟩ => show win0_4.index t (1 : Fin 2) * 64 + 1 * j.val = j.val; omega

private theorem blk5_apply (c : Dev nD) (t : Fin cfg0.N) (p : Fin 8) (i : Fin 2) (n : Fin 1024) (hn : n.val = 8 * t.val + p.val) :
    (iblk m c 5 t : Vec Ideal S8x2 .f32) (ix2 p i)
      = (V m c main_arg6 : S1024x2.Idx → EReal) (ix2 n i) := by
  obtain ⟨-, -, -, -, -, ⟨e0, e1⟩⟩ := idx_params t
  unfold iblk
  rw [View.read_apply]
  show V m c main_arg6 (((cfg0.win 5).blk t).view.emb (ix2 p i)) = V m c main_arg6 (ix2 n i)
  refine congrArg _ (funext fun a => Fin.ext ?_)
  match a with
  | ⟨0, _⟩ => show win0_5.index t (0 : Fin 2) * 8 + 1 * p.val = n.val; omega
  | ⟨1, _⟩ => show win0_5.index t (1 : Fin 2) * 2 + 1 * i.val = i.val; omega

private theorem blk6_apply (c : Dev nD) (t : Fin cfg0.N) (q : Fin 1152) :
    (iblk m c 6 t : Vec Ideal S1x1152 .f32) (ix2 (0 : Fin 1) q)
      = (V m c main_v2 : S1x1152.Idx → EReal) (ix2 (0 : Fin 1) q) := by
  obtain ⟨⟨e0, e1⟩, -⟩ := idx_rows t
  unfold iblk
  rw [View.read_apply]
  show V m c main_v2 (((cfg0.win 6).blk t).view.emb (ix2 (0 : Fin 1) q)) = V m c main_v2 (ix2 (0 : Fin 1) q)
  refine congrArg _ (funext fun a => Fin.ext ?_)
  match a with
  | ⟨0, _⟩ => show win0_6.index t (0 : Fin 2) * 1 + 1 * 0 = 0; omega
  | ⟨1, _⟩ => show win0_6.index t (1 : Fin 2) * 1152 + 1 * q.val = q.val; omega

private theorem blk7_apply (c : Dev nD) (t : Fin cfg0.N) (q : Fin 1152) :
    (iblk m c 7 t : Vec Ideal S1x1152 .f32) (ix2 (0 : Fin 1) q)
      = (V m c main_v3 : S1x1152.Idx → EReal) (ix2 (0 : Fin 1) q) := by
  obtain ⟨-, ⟨e0, e1⟩, -⟩ := idx_rows t
  unfold iblk
  rw [View.read_apply]
  show V m c main_v3 (((cfg0.win 7).blk t).view.emb (ix2 (0 : Fin 1) q)) = V m c main_v3 (ix2 (0 : Fin 1) q)
  refine congrArg _ (funext fun a => Fin.ext ?_)
  match a with
  | ⟨0, _⟩ => show win0_7.index t (0 : Fin 2) * 1 + 1 * 0 = 0; omega
  | ⟨1, _⟩ => show win0_7.index t (1 : Fin 2) * 1152 + 1 * q.val = q.val; omega

private theorem blk8_apply (c : Dev nD) (t : Fin cfg0.N) (q : Fin 1152) :
    (iblk m c 8 t : Vec Ideal S1x1152 .f32) (ix2 (0 : Fin 1) q)
      = (V m c main_v4 : S1x1152.Idx → EReal) (ix2 (0 : Fin 1) q) := by
  obtain ⟨-, -, ⟨e0, e1⟩⟩ := idx_rows t
  unfold iblk
  rw [View.read_apply]
  show V m c main_v4 (((cfg0.win 8).blk t).view.emb (ix2 (0 : Fin 1) q)) = V m c main_v4 (ix2 (0 : Fin 1) q)
  refine congrArg _ (funext fun a => Fin.ext ?_)
  match a with
  | ⟨0, _⟩ => show win0_8.index t (0 : Fin 2) * 1 + 1 * 0 = 0; omega
  | ⟨1, _⟩ => show win0_8.index t (1 : Fin 2) * 1152 + 1 * q.val = q.val; omega

/-- Two rows of parameters with the same six fields are the same row. -/
private theorem row_ext {r s : Row} (h0 : ∀ j, r.w0 j = s.w0 j) (h1 : ∀ j, r.b0 j = s.b0 j) (h2 : ∀ i j, r.w1 i j = s.w1 i j)
    (h3 : ∀ i, r.b1 i = s.b1 i) (h4 : ∀ i j, r.w2 i j = s.w2 i j) (h5 : ∀ i, r.b2 i = s.b2 i) : r = s := by
  cases r; cases s
  simp only [Row.mk.injEq]
  exact ⟨funext h0, funext h1, funext fun i => funext (h2 i), funext h3, funext fun i => funext (h4 i), funext h5⟩

/-- Row `p` of the eight rows the windows hold at point `t` is row `8t + p` of the parameter arrays. -/
private theorem row_eq (c : Dev nD) (t : Fin cfg0.N) (p : Fin 8) (n : Fin 1024) (hn : n.val = 8 * t.val + p.val) :
    rowAt8 (iblk m c 0 t) (iblk m c 1 t) (iblk m c 2 t) (iblk m c 3 t) (iblk m c 4 t) (iblk m c 5 t) p
      = rowAt (V m c main_arg1) (V m c main_arg2) (V m c main_arg3) (V m c main_arg4) (V m c main_arg5) (V m c main_arg6) n :=
  row_ext (fun j => blk0_apply m c t p j n hn) (fun j => blk3_apply m c t p j n hn) (fun i j => blk1_apply m c t p i j n hn)
    (fun i => blk4_apply m c t p i n hn) (fun i j => blk2_apply m c t p i j n hn) (fun i => blk5_apply m c t p i n hn)

/-! ## The four arrays at an entry

  Each whole-array form, read at an entry whose row is `n` and whose column is `q`. -/

section
variable (W0 : FVec Ideal ⟨3, ![1024, 64, 1]⟩ .f32) (W1 : FVec Ideal ⟨3, ![1024, 64, 64]⟩ .f32)
  (W2 : FVec Ideal ⟨3, ![1024, 2, 64]⟩ .f32) (B0 B1 : FVec Ideal ⟨2, ![1024, 64]⟩ .f32)
  (B2 : FVec Ideal ⟨2, ![1024, 2]⟩ .f32) (AH CA SA : FVec Ideal ⟨2, ![1, 1152]⟩ .f32)

private theorem arrXp_at (i : S1024x1152.Idx) (n : Fin 1024) (q : Fin 1152) (hn : (i 0).val = n.val) (hq : (i 1).val = q.val) :
    K.arrXp W0 W1 W2 B0 B1 B2 AH CA i
      = K.xp (rowAt W0 W1 W2 B0 B1 B2 n) (AH (ix2 (0 : Fin 1) q)) (CA (ix2 (0 : Fin 1) q)) := by
  have e0 : (⟨(i 0).val, (i 0).isLt⟩ : Fin 1024) = n := Fin.ext hn
  have e1 : (⟨(i 1).val, (i 1).isLt⟩ : Fin 1152) = q := Fin.ext hq
  unfold K.arrXp
  rw [e0, e1]

private theorem arrYp_at (i : S1024x1152.Idx) (n : Fin 1024) (q : Fin 1152) (hn : (i 0).val = n.val) (hq : (i 1).val = q.val) :
    K.arrYp W0 W1 W2 B0 B1 B2 AH SA i
      = K.yp (rowAt W0 W1 W2 B0 B1 B2 n) (AH (ix2 (0 : Fin 1) q)) (SA (ix2 (0 : Fin 1) q)) := by
  have e0 : (⟨(i 0).val, (i 0).isLt⟩ : Fin 1024) = n := Fin.ext hn
  have e1 : (⟨(i 1).val, (i 1).isLt⟩ : Fin 1152) = q := Fin.ext hq
  unfold K.arrYp
  rw [e0, e1]

private theorem arrXpp_at (i : S1024x1152.Idx) (n : Fin 1024) (q : Fin 1152) (hn : (i 0).val = n.val) (hq : (i 1).val = q.val) :
    K.arrXpp W0 W1 W2 B0 B1 B2 AH CA SA i
      = K.xpp (rowAt W0 W1 W2 B0 B1 B2 n) (AH (ix2 (0 : Fin 1) q)) (CA (ix2 (0 : Fin 1) q)) (SA (ix2 (0 : Fin 1) q)) := by
  have e0 : (⟨(i 0).val, (i 0).isLt⟩ : Fin 1024) = n := Fin.ext hn
  have e1 : (⟨(i 1).val, (i 1).isLt⟩ : Fin 1152) = q := Fin.ext hq
  unfold K.arrXpp
  rw [e0, e1]

private theorem arrYpp_at (i : S1024x1152.Idx) (n : Fin 1024) (q : Fin 1152) (hn : (i 0).val = n.val) (hq : (i 1).val = q.val) :
    K.arrYpp W0 W1 W2 B0 B1 B2 AH CA SA i
      = K.ypp (rowAt W0 W1 W2 B0 B1 B2 n) (AH (ix2 (0 : Fin 1) q)) (CA (ix2 (0 : Fin 1) q)) (SA (ix2 (0 : Fin 1) q)) := by
  have e0 : (⟨(i 0).val, (i 0).isLt⟩ : Fin 1024) = n := Fin.ext hn
  have e1 : (⟨(i 1).val, (i 1).isLt⟩ : Fin 1152) = q := Fin.ext hq
  unfold K.arrYpp
  rw [e0, e1]

end

/-! ## Output window 9 -/

/-- What point `t` leaves at row `p`, lane `q` of window 9's block: the kernel's arrangement for row `8t + p` at lane `q`'s angle. -/
private theorem point9 (c : Dev nD) (t : Fin cfg0.N) (p : Fin 8) (q : Fin 1152) (n : Fin 1024) (hn : n.val = 8 * t.val + p.val) :
    Gen.out0_9 (F := Ideal) (iblk m c 0 t) (iblk m c 1 t) (iblk m c 2 t) (iblk m c 3 t) (iblk m c 4 t) (iblk m c 5 t) (iblk m c 6 t) (iblk m c 7 t) (iblk m c 8 t) (ix2 p q)
      = K.xp (rowAt (V m c main_arg1) (V m c main_arg2) (V m c main_arg3) (V m c main_arg4) (V m c main_arg5) (V m c main_arg6) n)
          ((V m c main_v2 : S1x1152.Idx → EReal) (ix2 (0 : Fin 1) q)) ((V m c main_v3 : S1x1152.Idx → EReal) (ix2 (0 : Fin 1) q)) := by
  refine (Block.out9_apply (iblk m c 0 t) (iblk m c 1 t) (iblk m c 2 t) (iblk m c 3 t) (iblk m c 4 t) (iblk m c 5 t) (iblk m c 6 t) (iblk m c 7 t) (iblk m c 8 t) p q).trans ?_
  rw [row_eq m c t p n hn, blk6_apply m c t q, blk7_apply m c t q]

/-- What point `t` writes back is its block of the whole array. -/
private theorem flushed9_eq (c : Dev nD) (t : Fin cfg0.N) :
    (dats m 0 c).flushed 9 t = ((cfg0.win 9).blk t).view.read (Elt Ideal)
      (K.arrXp (V m c main_arg1) (V m c main_arg2) (V m c main_arg3) (V m c main_arg4) (V m c main_arg5) (V m c main_arg6) (V m c main_v2) (V m c main_v3)) := by
  show (cfg0.win 9).cut (grid0.coords t) ((dats m 0 c).after 9 t) = _
  rw [after0_9]
  obtain ⟨⟨e0, e1⟩, -⟩ := idx_outs t
  have hN : cfg0.N = 128 := N_0
  have ht : t.val < 128 := by have := t.isLt; omega
  funext y
  obtain ⟨p, q, rfl⟩ : ∃ (p : Fin 8) (q : Fin 1152), y = ix2 p q := ⟨y 0, y 1, eq_ix2 (n0 := 8) (n1 := 1152) y⟩
  show Gen.out0_9 (F := Ideal) (iblk m c 0 t) (iblk m c 1 t) (iblk m c 2 t) (iblk m c 3 t) (iblk m c 4 t) (iblk m c 5 t) (iblk m c 6 t) (iblk m c 7 t) (iblk m c 8 t) (ix2 p q)
    = K.arrXp (V m c main_arg1) (V m c main_arg2) (V m c main_arg3) (V m c main_arg4) (V m c main_arg5) (V m c main_arg6) (V m c main_v2) (V m c main_v3) (((cfg0.win 9).blk t).view.emb (ix2 p q))
  refine (point9 m c t p q ⟨8 * t.val + p.val, by omega⟩ rfl).trans (arrXp_at _ _ _ _ _ _ _ _ _ _ q ?_ ?_).symm
  · show win0_9.index t (0 : Fin 2) * 8 + 1 * p.val = 8 * t.val + p.val; omega
  · show win0_9.index t (1 : Fin 2) * 1152 + 1 * q.val = q.val; omega

/-- An entry of the array is in point `t`'s block iff each coordinate is in the block's range on its axis. -/
private theorem mem_blk9 (t : Fin cfg0.N) (i : S1024x1152.Idx) :
    i ∈ ((cfg0.win 9).blk t).view.set ↔ ∀ a : Fin 2, win0_9.index t a * S8x1152.size a ≤ (i a).val ∧ (i a).val < win0_9.index t a * S8x1152.size a + S8x1152.size a := by
  show i ∈ ((View.whole main_v5_0).slice (win0_9.rect t)).set ↔ _
  rw [View.set_slice_whole, Rect.mem_set_unit]
  exact Iff.rfl

/-- Row `r` is written by point `r / 8`: the 128 blocks of eight rows cover the array. -/
private theorem cover9 (i : S1024x1152.Idx) : ∃ t : Fin cfg0.N, (cfg0.win 9).flush t = true ∧ i ∈ ((cfg0.win 9).blk t).view.set := by
  have hi0 : (i 0).val < 1024 := (i 0).isLt
  have hi1 : (i 1).val < 1152 := (i 1).isLt
  have hN : cfg0.N = 128 := N_0
  obtain ⟨t, ht⟩ : ∃ t : Fin cfg0.N, t.val = (i 0).val / 8 := ⟨⟨(i 0).val / 8, by omega⟩, rfl⟩
  obtain ⟨⟨e0, e1⟩, -⟩ := idx_outs t
  refine ⟨t, flush0_9 t, ?_⟩
  rw [mem_blk9]
  intro a
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 1152 ≤ (i 1).val ∧ (i 1).val < win0_9.index t (1 : Fin 2) * 1152 + 1152; omega

theorem final9 (c : Dev nD) : (Gen.dats m 0 c).arrAt 9 cfg0.N
    = K.arrXp (Gen.V m c main_arg1) (Gen.V m c main_arg2) (Gen.V m c main_arg3) (Gen.V m c main_arg4) (Gen.V m c main_arg5) (Gen.V m c main_arg6) (Gen.V m c main_v2) (Gen.V m c main_v3) :=
  (dats m 0 c).arrAt_eq_of_cover 9 _ (fun t _ => flushed9_eq m c t) cover9

/-! ## Output window 10 -/

/-- What point `t` leaves at row `p`, lane `q` of window 10's block: the kernel's arrangement for row `8t + p` at lane `q`'s angle. -/
private theorem point10 (c : Dev nD) (t : Fin cfg0.N) (p : Fin 8) (q : Fin 1152) (n : Fin 1024) (hn : n.val = 8 * t.val + p.val) :
    Gen.out0_10 (F := Ideal) (iblk m c 0 t) (iblk m c 1 t) (iblk m c 2 t) (iblk m c 3 t) (iblk m c 4 t) (iblk m c 5 t) (iblk m c 6 t) (iblk m c 7 t) (iblk m c 8 t) (ix2 p q)
      = K.yp (rowAt (V m c main_arg1) (V m c main_arg2) (V m c main_arg3) (V m c main_arg4) (V m c main_arg5) (V m c main_arg6) n)
          ((V m c main_v2 : S1x1152.Idx → EReal) (ix2 (0 : Fin 1) q)) ((V m c main_v4 : S1x1152.Idx → EReal) (ix2 (0 : Fin 1) q)) := by
  refine (Block.out10_apply (iblk m c 0 t) (iblk m c 1 t) (iblk m c 2 t) (iblk m c 3 t) (iblk m c 4 t) (iblk m c 5 t) (iblk m c 6 t) (iblk m c 7 t) (iblk m c 8 t) p q).trans ?_
  rw [row_eq m c t p n hn, blk6_apply m c t q, blk8_apply m c t q]

/-- What point `t` writes back is its block of the whole array. -/
private theorem flushed10_eq (c : Dev nD) (t : Fin cfg0.N) :
    (dats m 0 c).flushed 10 t = ((cfg0.win 10).blk t).view.read (Elt Ideal)
      (K.arrYp (V m c main_arg1) (V m c main_arg2) (V m c main_arg3) (V m c main_arg4) (V m c main_arg5) (V m c main_arg6) (V m c main_v2) (V m c main_v4)) := by
  show (cfg0.win 10).cut (grid0.coords t) ((dats m 0 c).after 10 t) = _
  rw [after0_10]
  obtain ⟨-, ⟨e0, e1⟩, -⟩ := idx_outs t
  have hN : cfg0.N = 128 := N_0
  have ht : t.val < 128 := by have := t.isLt; omega
  funext y
  obtain ⟨p, q, rfl⟩ : ∃ (p : Fin 8) (q : Fin 1152), y = ix2 p q := ⟨y 0, y 1, eq_ix2 (n0 := 8) (n1 := 1152) y⟩
  show Gen.out0_10 (F := Ideal) (iblk m c 0 t) (iblk m c 1 t) (iblk m c 2 t) (iblk m c 3 t) (iblk m c 4 t) (iblk m c 5 t) (iblk m c 6 t) (iblk m c 7 t) (iblk m c 8 t) (ix2 p q)
    = K.arrYp (V m c main_arg1) (V m c main_arg2) (V m c main_arg3) (V m c main_arg4) (V m c main_arg5) (V m c main_arg6) (V m c main_v2) (V m c main_v4) (((cfg0.win 10).blk t).view.emb (ix2 p q))
  refine (point10 m c t p q ⟨8 * t.val + p.val, by omega⟩ rfl).trans (arrYp_at _ _ _ _ _ _ _ _ _ _ q ?_ ?_).symm
  · show win0_10.index t (0 : Fin 2) * 8 + 1 * p.val = 8 * t.val + p.val; omega
  · show win0_10.index t (1 : Fin 2) * 1152 + 1 * q.val = q.val; omega

/-- An entry of the array is in point `t`'s block iff each coordinate is in the block's range on its axis. -/
private theorem mem_blk10 (t : Fin cfg0.N) (i : S1024x1152.Idx) :
    i ∈ ((cfg0.win 10).blk t).view.set ↔ ∀ a : Fin 2, win0_10.index t a * S8x1152.size a ≤ (i a).val ∧ (i a).val < win0_10.index t a * S8x1152.size a + S8x1152.size a := by
  show i ∈ ((View.whole main_v5_1).slice (win0_10.rect t)).set ↔ _
  rw [View.set_slice_whole, Rect.mem_set_unit]
  exact Iff.rfl

/-- Row `r` is written by point `r / 8`: the 128 blocks of eight rows cover the array. -/
private theorem cover10 (i : S1024x1152.Idx) : ∃ t : Fin cfg0.N, (cfg0.win 10).flush t = true ∧ i ∈ ((cfg0.win 10).blk t).view.set := by
  have hi0 : (i 0).val < 1024 := (i 0).isLt
  have hi1 : (i 1).val < 1152 := (i 1).isLt
  have hN : cfg0.N = 128 := N_0
  obtain ⟨t, ht⟩ : ∃ t : Fin cfg0.N, t.val = (i 0).val / 8 := ⟨⟨(i 0).val / 8, by omega⟩, rfl⟩
  obtain ⟨-, ⟨e0, e1⟩, -⟩ := idx_outs t
  refine ⟨t, flush0_10 t, ?_⟩
  rw [mem_blk10]
  intro a
  match a with
  | ⟨0, _⟩ => show win0_10.index t (0 : Fin 2) * 8 ≤ (i 0).val ∧ (i 0).val < win0_10.index t (0 : Fin 2) * 8 + 8; omega
  | ⟨1, _⟩ => show win0_10.index t (1 : Fin 2) * 1152 ≤ (i 1).val ∧ (i 1).val < win0_10.index t (1 : Fin 2) * 1152 + 1152; omega

theorem final10 (c : Dev nD) : (Gen.dats m 0 c).arrAt 10 cfg0.N
    = K.arrYp (Gen.V m c main_arg1) (Gen.V m c main_arg2) (Gen.V m c main_arg3) (Gen.V m c main_arg4) (Gen.V m c main_arg5) (Gen.V m c main_arg6) (Gen.V m c main_v2) (Gen.V m c main_v4) :=
  (dats m 0 c).arrAt_eq_of_cover 10 _ (fun t _ => flushed10_eq m c t) cover10

/-! ## Output window 11 -/

/-- What point `t` leaves at row `p`, lane `q` of window 11's block: the kernel's arrangement for row `8t + p` at lane `q`'s angle. -/
private theorem point11 (c : Dev nD) (t : Fin cfg0.N) (p : Fin 8) (q : Fin 1152) (n : Fin 1024) (hn : n.val = 8 * t.val + p.val) :
    Gen.out0_11 (F := Ideal) (iblk m c 0 t) (iblk m c 1 t) (iblk m c 2 t) (iblk m c 3 t) (iblk m c 4 t) (iblk m c 5 t) (iblk m c 6 t) (iblk m c 7 t) (iblk m c 8 t) (ix2 p q)
      = K.xpp (rowAt (V m c main_arg1) (V m c main_arg2) (V m c main_arg3) (V m c main_arg4) (V m c main_arg5) (V m c main_arg6) n)
          ((V m c main_v2 : S1x1152.Idx → EReal) (ix2 (0 : Fin 1) q)) ((V m c main_v3 : S1x1152.Idx → EReal) (ix2 (0 : Fin 1) q)) ((V m c main_v4 : S1x1152.Idx → EReal) (ix2 (0 : Fin 1) q)) := by
  refine (Block.out11_apply (iblk m c 0 t) (iblk m c 1 t) (iblk m c 2 t) (iblk m c 3 t) (iblk m c 4 t) (iblk m c 5 t) (iblk m c 6 t) (iblk m c 7 t) (iblk m c 8 t) p q).trans ?_
  rw [row_eq m c t p n hn, blk6_apply m c t q, blk7_apply m c t q, blk8_apply m c t q]

/-- What point `t` writes back is its block of the whole array. -/
private theorem flushed11_eq (c : Dev nD) (t : Fin cfg0.N) :
    (dats m 0 c).flushed 11 t = ((cfg0.win 11).blk t).view.read (Elt Ideal)
      (K.arrXpp (V m c main_arg1) (V m c main_arg2) (V m c main_arg3) (V m c main_arg4) (V m c main_arg5) (V m c main_arg6) (V m c main_v2) (V m c main_v3) (V m c main_v4)) := by
  show (cfg0.win 11).cut (grid0.coords t) ((dats m 0 c).after 11 t) = _
  rw [after0_11]
  obtain ⟨-, -, ⟨e0, e1⟩, -⟩ := idx_outs t
  have hN : cfg0.N = 128 := N_0
  have ht : t.val < 128 := by have := t.isLt; omega
  funext y
  obtain ⟨p, q, rfl⟩ : ∃ (p : Fin 8) (q : Fin 1152), y = ix2 p q := ⟨y 0, y 1, eq_ix2 (n0 := 8) (n1 := 1152) y⟩
  show Gen.out0_11 (F := Ideal) (iblk m c 0 t) (iblk m c 1 t) (iblk m c 2 t) (iblk m c 3 t) (iblk m c 4 t) (iblk m c 5 t) (iblk m c 6 t) (iblk m c 7 t) (iblk m c 8 t) (ix2 p q)
    = K.arrXpp (V m c main_arg1) (V m c main_arg2) (V m c main_arg3) (V m c main_arg4) (V m c main_arg5) (V m c main_arg6) (V m c main_v2) (V m c main_v3) (V m c main_v4) (((cfg0.win 11).blk t).view.emb (ix2 p q))
  refine (point11 m c t p q ⟨8 * t.val + p.val, by omega⟩ rfl).trans (arrXpp_at _ _ _ _ _ _ _ _ _ _ _ q ?_ ?_).symm
  · show win0_11.index t (0 : Fin 2) * 8 + 1 * p.val = 8 * t.val + p.val; omega
  · show win0_11.index t (1 : Fin 2) * 1152 + 1 * q.val = q.val; omega

/-- An entry of the array is in point `t`'s block iff each coordinate is in the block's range on its axis. -/
private theorem mem_blk11 (t : Fin cfg0.N) (i : S1024x1152.Idx) :
    i ∈ ((cfg0.win 11).blk t).view.set ↔ ∀ a : Fin 2, win0_11.index t a * S8x1152.size a ≤ (i a).val ∧ (i a).val < win0_11.index t a * S8x1152.size a + S8x1152.size a := by
  show i ∈ ((View.whole main_v5_2).slice (win0_11.rect t)).set ↔ _
  rw [View.set_slice_whole, Rect.mem_set_unit]
  exact Iff.rfl

/-- Row `r` is written by point `r / 8`: the 128 blocks of eight rows cover the array. -/
private theorem cover11 (i : S1024x1152.Idx) : ∃ t : Fin cfg0.N, (cfg0.win 11).flush t = true ∧ i ∈ ((cfg0.win 11).blk t).view.set := by
  have hi0 : (i 0).val < 1024 := (i 0).isLt
  have hi1 : (i 1).val < 1152 := (i 1).isLt
  have hN : cfg0.N = 128 := N_0
  obtain ⟨t, ht⟩ : ∃ t : Fin cfg0.N, t.val = (i 0).val / 8 := ⟨⟨(i 0).val / 8, by omega⟩, rfl⟩
  obtain ⟨-, -, ⟨e0, e1⟩, -⟩ := idx_outs t
  refine ⟨t, flush0_11 t, ?_⟩
  rw [mem_blk11]
  intro a
  match a with
  | ⟨0, _⟩ => show win0_11.index t (0 : Fin 2) * 8 ≤ (i 0).val ∧ (i 0).val < win0_11.index t (0 : Fin 2) * 8 + 8; omega
  | ⟨1, _⟩ => show win0_11.index t (1 : Fin 2) * 1152 ≤ (i 1).val ∧ (i 1).val < win0_11.index t (1 : Fin 2) * 1152 + 1152; omega

theorem final11 (c : Dev nD) : (Gen.dats m 0 c).arrAt 11 cfg0.N
    = K.arrXpp (Gen.V m c main_arg1) (Gen.V m c main_arg2) (Gen.V m c main_arg3) (Gen.V m c main_arg4) (Gen.V m c main_arg5) (Gen.V m c main_arg6) (Gen.V m c main_v2) (Gen.V m c main_v3) (Gen.V m c main_v4) :=
  (dats m 0 c).arrAt_eq_of_cover 11 _ (fun t _ => flushed11_eq m c t) cover11

/-! ## Output window 12 -/

/-- What point `t` leaves at row `p`, lane `q` of window 12's block: the kernel's arrangement for row `8t + p` at lane `q`'s angle. -/
private theorem point12 (c : Dev nD) (t : Fin cfg0.N) (p : Fin 8) (q : Fin 1152) (n : Fin 1024) (hn : n.val = 8 * t.val + p.val) :
    Gen.out0_12 (F := Ideal) (iblk m c 0 t) (iblk m c 1 t) (iblk m c 2 t) (iblk m c 3 t) (iblk m c 4 t) (iblk m c 5 t) (iblk m c 6 t) (iblk m c 7 t) (iblk m c 8 t) (ix2 p q)
      = K.ypp (rowAt (V m c main_arg1) (V m c main_arg2) (V m c main_arg3) (V m c main_arg4) (V m c main_arg5) (V m c main_arg6) n)
          ((V m c main_v2 : S1x1152.Idx → EReal) (ix2 (0 : Fin 1) q)) ((V m c main_v3 : S1x1152.Idx → EReal) (ix2 (0 : Fin 1) q)) ((V m c main_v4 : S1x1152.Idx → EReal) (ix2 (0 : Fin 1) q)) := by
  refine (Block.out12_apply (iblk m c 0 t) (iblk m c 1 t) (iblk m c 2 t) (iblk m c 3 t) (iblk m c 4 t) (iblk m c 5 t) (iblk m c 6 t) (iblk m c 7 t) (iblk m c 8 t) p q).trans ?_
  rw [row_eq m c t p n hn, blk6_apply m c t q, blk7_apply m c t q, blk8_apply m c t q]

/-- What point `t` writes back is its block of the whole array. -/
private theorem flushed12_eq (c : Dev nD) (t : Fin cfg0.N) :
    (dats m 0 c).flushed 12 t = ((cfg0.win 12).blk t).view.read (Elt Ideal)
      (K.arrYpp (V m c main_arg1) (V m c main_arg2) (V m c main_arg3) (V m c main_arg4) (V m c main_arg5) (V m c main_arg6) (V m c main_v2) (V m c main_v3) (V m c main_v4)) := by
  show (cfg0.win 12).cut (grid0.coords t) ((dats m 0 c).after 12 t) = _
  rw [after0_12]
  obtain ⟨-, -, -, ⟨e0, e1⟩⟩ := idx_outs t
  have hN : cfg0.N = 128 := N_0
  have ht : t.val < 128 := by have := t.isLt; omega
  funext y
  obtain ⟨p, q, rfl⟩ : ∃ (p : Fin 8) (q : Fin 1152), y = ix2 p q := ⟨y 0, y 1, eq_ix2 (n0 := 8) (n1 := 1152) y⟩
  show Gen.out0_12 (F := Ideal) (iblk m c 0 t) (iblk m c 1 t) (iblk m c 2 t) (iblk m c 3 t) (iblk m c 4 t) (iblk m c 5 t) (iblk m c 6 t) (iblk m c 7 t) (iblk m c 8 t) (ix2 p q)
    = K.arrYpp (V m c main_arg1) (V m c main_arg2) (V m c main_arg3) (V m c main_arg4) (V m c main_arg5) (V m c main_arg6) (V m c main_v2) (V m c main_v3) (V m c main_v4) (((cfg0.win 12).blk t).view.emb (ix2 p q))
  refine (point12 m c t p q ⟨8 * t.val + p.val, by omega⟩ rfl).trans (arrYpp_at _ _ _ _ _ _ _ _ _ _ _ q ?_ ?_).symm
  · show win0_12.index t (0 : Fin 2) * 8 + 1 * p.val = 8 * t.val + p.val; omega
  · show win0_12.index t (1 : Fin 2) * 1152 + 1 * q.val = q.val; omega

/-- An entry of the array is in point `t`'s block iff each coordinate is in the block's range on its axis. -/
private theorem mem_blk12 (t : Fin cfg0.N) (i : S1024x1152.Idx) :
    i ∈ ((cfg0.win 12).blk t).view.set ↔ ∀ a : Fin 2, win0_12.index t a * S8x1152.size a ≤ (i a).val ∧ (i a).val < win0_12.index t a * S8x1152.size a + S8x1152.size a := by
  show i ∈ ((View.whole main_v5_3).slice (win0_12.rect t)).set ↔ _
  rw [View.set_slice_whole, Rect.mem_set_unit]
  exact Iff.rfl

/-- Row `r` is written by point `r / 8`: the 128 blocks of eight rows cover the array. -/
private theorem cover12 (i : S1024x1152.Idx) : ∃ t : Fin cfg0.N, (cfg0.win 12).flush t = true ∧ i ∈ ((cfg0.win 12).blk t).view.set := by
  have hi0 : (i 0).val < 1024 := (i 0).isLt
  have hi1 : (i 1).val < 1152 := (i 1).isLt
  have hN : cfg0.N = 128 := N_0
  obtain ⟨t, ht⟩ : ∃ t : Fin cfg0.N, t.val = (i 0).val / 8 := ⟨⟨(i 0).val / 8, by omega⟩, rfl⟩
  obtain ⟨-, -, -, ⟨e0, e1⟩⟩ := idx_outs t
  refine ⟨t, flush0_12 t, ?_⟩
  rw [mem_blk12]
  intro a
  match a with
  | ⟨0, _⟩ => show win0_12.index t (0 : Fin 2) * 8 ≤ (i 0).val ∧ (i 0).val < win0_12.index t (0 : Fin 2) * 8 + 8; omega
  | ⟨1, _⟩ => show win0_12.index t (1 : Fin 2) * 1152 ≤ (i 1).val ∧ (i 1).val < win0_12.index t (1 : Fin 2) * 1152 + 1152; omega

theorem final12 (c : Dev nD) : (Gen.dats m 0 c).arrAt 12 cfg0.N
    = K.arrYpp (Gen.V m c main_arg1) (Gen.V m c main_arg2) (Gen.V m c main_arg3) (Gen.V m c main_arg4) (Gen.V m c main_arg5) (Gen.V m c main_arg6) (Gen.V m c main_v2) (Gen.V m c main_v3) (Gen.V m c main_v4) :=
  (dats m 0 c).arrAt_eq_of_cover 12 _ (fun t _ => flushed12_eq m c t) cover12

end Cert.KernelIdeal.Arr

end
-- ==== Proof.Tail.lean ====
/-
  What both programs do last with each of their four [1024 × 1025] arrays: keep it as the left 1025 columns of the
  [1024 × 2049] result and fill the right 1024 columns from its first 1024 columns read backwards (`mirror`) —
  as they are (`joinEven`), negated (`joinOdd`), or subtracted from twice the array's last column (`joinXp`).
  Stated once, over the kernel program's shape facts; the reference's last operations are the same terms.
-/
import proofs.«413713_j38525856645310_4_alg».proof.KernelIdeal
import proofs.«413713_j38525856645310_4_alg».proof.Proof.Gen.KernelIdeal

noncomputable section

namespace Cert.Tail

open Cert.KernelIdeal Idealize.ShloMosaic
open Cert.KernelIdeal.Facts₀ Cert.KernelIdeal.Facts

variable {F : FTy → Type} [FloatOps F]

/-- The first 1024 columns, read backwards. -/
def mirror (X : FVec F S1024x1025 .f32) : FVec F S1024x1024 .f32 :=
  Host.reverse [1] (extractStridedSlice S1024x1024 ![0, 0] X slices_S1024x1025_S1024x1024_0_0)

def joinEven (X : FVec F S1024x1025 .f32) : FVec F S1024x2049 .f32 :=
  concatenate S1024x2049 1 [⟨S1024x1025, X⟩, ⟨S1024x1024, mirror X⟩] concatenates_S1024x1025_S1024x1024_S1024x2049_d1

def joinOdd (X : FVec F S1024x1025 .f32) : FVec F S1024x2049 .f32 :=
  concatenate S1024x2049 1 [⟨S1024x1025, X⟩, ⟨S1024x1024, Host.negf (mirror X)⟩] concatenates_S1024x1025_S1024x1024_S1024x2049_d1

def joinXp (X : FVec F S1024x1025 .f32) : FVec F S1024x2049 .f32 :=
  concatenate S1024x2049 1 [⟨S1024x1025, X⟩, ⟨S1024x1024,
    subf (broadcastInDim S1024x1024 ![0, 1] bcast_S1024x1_S1024x1024_0_1
      (mulf (broadcastInDim S1024x1 ![] bcast_S_S1024x1 (constant (F := F) S_ .f32 0x40000000#32))
        (extractStridedSlice S1024x1 ![0, 1024] X slices_S1024x1025_S1024x1_0_1024))) (mirror X)⟩]
    concatenates_S1024x1025_S1024x1024_S1024x2049_d1

end Cert.Tail

end
-- ==== Proof.KernelRun.lean ====
/-
  The idealized kernel program's run with its four results named. Before the region the host pads the first 1025
  angles with 127 zeros and takes the row's cosine and sine; after it, it cuts each 1152-column array back to 1025
  columns and mirrors and joins it. So each result is the shared tail of the kernel's arrangement at
  (row, column) of the argument arrays.
-/
import proofs.«413713_j38525856645310_4_alg».proof.Proof.KernelArray
import proofs.«413713_j38525856645310_4_alg».proof.Proof.Tail
import Idealize.ShloMosaic.Lib.StableHlo.Run
import Idealize.ShloMosaic.Lib.Pipeline.Value
import Idealize.ShloMosaic.Lib.KernelVsHost

noncomputable section

namespace Cert.KernelIdeal.Value

open Cert.KernelIdeal Cert.KernelIdeal.Gen Idealize.ShloMosaic Idealize.ShloMosaic.ValueIdx Cert.Mlp
open Idealize.SL.Sem

section HostPrefix
variable (m : (ℓ : Loc nD τ sig) → Buf (Elt Ideal) ℓ)

/-- The cosine row is the cosine of the padded angle row. -/
private theorem V_v3 (c : Dev nD) :
    (Gen.V m c main_v3 : S1x1152.Idx → EReal)
      = Host.cos (F := Ideal) (s := S1x1152) (φ := .f32) (Gen.V m c main_v2) := by
  dsimp only [Gen.V, Gen.V0]
  simp only [Gen.hostOps0, Gen.hostOps0_1, Gen.hostOps0_2, List.flatten_cons, List.flatten_nil, List.append_nil,
    List.cons_append, List.nil_append]
  after_results

/-- The sine row is the sine of the padded angle row. -/
private theorem V_v4 (c : Dev nD) :
    (Gen.V m c main_v4 : S1x1152.Idx → EReal)
      = Host.sin (F := Ideal) (s := S1x1152) (φ := .f32) (Gen.V m c main_v2) := by
  dsimp only [Gen.V, Gen.V0]
  simp only [Gen.hostOps0, Gen.hostOps0_1, Gen.hostOps0_2, List.flatten_cons, List.flatten_nil, List.append_nil,
    List.cons_append, List.nil_append]
  after_results

/-- The padded angle row: the first 1025 angles as one row, then 127 lanes of the padding value. -/
private theorem V_v2 (c : Dev nD) :
    (Gen.V m c main_v2 : S1x1152.Idx → EReal)
      = pad S1x1152 ![0, 0] ![0, 127] ![0, 0]
          (shapeCast S1x1025 (extractStridedSlice S1025 ![0] (m ((c.tc : Thread nD τ).loc main_arg0)) slices_S2049_S1025_0)
            shapeCasts_S1025_S1x1025)
          (sitofp (F := Ideal) .f32 (constantI S_ 32 0#32)) pads_S1x1025_S1x1152_000_01270 h_S_ := by
  dsimp only [Gen.V, Gen.V0]
  simp only [Gen.hostOps0, Gen.hostOps0_1, Gen.hostOps0_2, List.flatten_cons, List.flatten_nil, List.append_nil,
    List.cons_append, List.nil_append]
  after_results
  rfl

end HostPrefix

section Slice
variable (AL : FVec Ideal ⟨1, ![2049]⟩ .f32)
  (W0 : FVec Ideal ⟨3, ![1024, 64, 1]⟩ .f32) (W1 : FVec Ideal ⟨3, ![1024, 64, 64]⟩ .f32)
  (W2 : FVec Ideal ⟨3, ![1024, 2, 64]⟩ .f32) (B0 B1 : FVec Ideal ⟨2, ![1024, 64]⟩ .f32)
  (B2 : FVec Ideal ⟨2, ![1024, 2]⟩ .f32) (AH CA SA : FVec Ideal ⟨2, ![1, 1152]⟩ .f32)

/-- Cutting the kernel's 1152-column array back to 1025 columns, when the padded row holds the angles on its first 1025
    lanes and the second row their cosines, gives the kernel's arrangement at (row, column). -/
private theorem slice_xp
    (hAH : ∀ b : Fin 1025, AH (ix2 (0 : Fin 1) (⟨b.val, by have := b.isLt; omega⟩ : Fin 1152)) = angle AL b)
    (hCA : ∀ j, CA j = Ideal.cos (AH j)) :
    extractStridedSlice S1024x1025 ![0, 0] (K.arrXp W0 W1 W2 B0 B1 B2 AH CA) slices_S1024x1152_S1024x1025_0_0
      = K.resXp AL W0 W1 W2 B0 B1 B2 := by
  funext i
  have h0 : (i 0).val < 1024 := (i 0).isLt
  have h1 : (i 1).val < 1025 := (i 1).isLt
  refine (extractStridedSlice_apply _ _ _ i (ix2 (⟨(i 0).val, h0⟩ : Fin 1024) (⟨(i 1).val, by omega⟩ : Fin 1152))
    (fun a => match a with | ⟨0, _⟩ => by show (i 0).val = 0 + (i 0).val; omega
                           | ⟨1, _⟩ => by show (i 1).val = 0 + (i 1).val; omega)).trans ?_
  unfold K.arrXp K.resXp
  dsimp only
  rw [hCA, hAH ⟨(i 1).val, h1⟩]

/-- The same with the row of sines. -/
private theorem slice_yp
    (hAH : ∀ b : Fin 1025, AH (ix2 (0 : Fin 1) (⟨b.val, by have := b.isLt; omega⟩ : Fin 1152)) = angle AL b)
    (hSA : ∀ j, SA j = Ideal.sin (AH j)) :
    extractStridedSlice S1024x1025 ![0, 0] (K.arrYp W0 W1 W2 B0 B1 B2 AH SA) slices_S1024x1152_S1024x1025_0_0
      = K.resYp AL W0 W1 W2 B0 B1 B2 := by
  funext i
  have h0 : (i 0).val < 1024 := (i 0).isLt
  have h1 : (i 1).val < 1025 := (i 1).isLt
  refine (extractStridedSlice_apply _ _ _ i (ix2 (⟨(i 0).val, h0⟩ : Fin 1024) (⟨(i 1).val, by omega⟩ : Fin 1152))
    (fun a => match a with | ⟨0, _⟩ => by show (i 0).val = 0 + (i 0).val; omega
                           | ⟨1, _⟩ => by show (i 1).val = 0 + (i 1).val; omega)).trans ?_
  unfold K.arrYp K.resYp
  dsimp only
  rw [hSA, hAH ⟨(i 1).val, h1⟩]

/-- The same with both rows. -/
private theorem slice_xpp
    (hAH : ∀ b : Fin 1025, AH (ix2 (0 : Fin 1) (⟨b.val, by have := b.isLt; omega⟩ : Fin 1152)) = angle AL b)
    (hCA : ∀ j, CA j = Ideal.cos (AH j)) (hSA : ∀ j, SA j = Ideal.sin (AH j)) :
    extractStridedSlice S1024x1025 ![0, 0] (K.arrXpp W0 W1 W2 B0 B1 B2 AH CA SA) slices_S1024x1152_S1024x1025_0_0
      = K.resXpp AL W0 W1 W2 B0 B1 B2 := by
  funext i
  have h0 : (i 0).val < 1024 := (i 0).isLt
  have h1 : (i 1).val < 1025 := (i 1).isLt
  refine (extractStridedSlice_apply _ _ _ i (ix2 (⟨(i 0).val, h0⟩ : Fin 1024) (⟨(i 1).val, by omega⟩ : Fin 1152))
    (fun a => match a with | ⟨0, _⟩ => by show (i 0).val = 0 + (i 0).val; omega
                           | ⟨1, _⟩ => by show (i 1).val = 0 + (i 1).val; omega)).trans ?_
  unfold K.arrXpp K.resXpp
  dsimp only
  rw [hCA, hSA, hAH ⟨(i 1).val, h1⟩]

/-- And the fourth array, with both rows. -/
private theorem slice_ypp
    (hAH : ∀ b : Fin 1025, AH (ix2 (0 : Fin 1) (⟨b.val, by have := b.isLt; omega⟩ : Fin 1152)) = angle AL b)
    (hCA : ∀ j, CA j = Ideal.cos (AH j)) (hSA : ∀ j, SA j = Ideal.sin (AH j)) :
    extractStridedSlice S1024x1025 ![0, 0] (K.arrYpp W0 W1 W2 B0 B1 B2 AH CA SA) slices_S1024x1152_S1024x1025_0_0
      = K.resYpp AL W0 W1 W2 B0 B1 B2 := by
  funext i
  have h0 : (i 0).val < 1024 := (i 0).isLt
  have h1 : (i 1).val < 1025 := (i 1).isLt
  refine (extractStridedSlice_apply _ _ _ i (ix2 (⟨(i 0).val, h0⟩ : Fin 1024) (⟨(i 1).val, by omega⟩ : Fin 1152))
    (fun a => match a with | ⟨0, _⟩ => by show (i 0).val = 0 + (i 0).val; omega
                           | ⟨1, _⟩ => by show (i 1).val = 0 + (i 1).val; omega)).trans ?_
  unfold K.arrYpp K.resYpp
  dsimp only
  rw [hCA, hSA, hAH ⟨(i 1).val, h1⟩]

end Slice

section PadRead
variable (m : (ℓ : Loc nD τ sig) → Buf (Elt Ideal) ℓ)

/-- On its first 1025 lanes the padded row holds the angles. -/
private theorem V_v2_apply (c : Dev nD) (b : Fin 1025) :
    (Gen.V m c main_v2 : S1x1152.Idx → EReal) (ix2 (0 : Fin 1) (⟨b.val, by have := b.isLt; omega⟩ : Fin 1152))
      = angle (m ((c.tc : Thread nD τ).loc main_arg0)) b := by
  have hb : b.val < 1025 := b.isLt
  refine (congrFun (V_v2 m c) _).trans ?_
  refine (pad_apply_of_inside _ _ _ _ _ _ _ _ (ix2 (0 : Fin 1) b)
    (fun a => match a with | ⟨0, _⟩ => by show 0 = 0 + 0 * (0 + 1); omega
                           | ⟨1, _⟩ => by show b.val = 0 + b.val * (0 + 1); omega)).trans ?_
  refine (shapeCast_apply _ _ (ix2 (0 : Fin 1) b) (ix1 b) ?_).trans ?_
  · rw [Shape.rowMajor_val_one, Shape.rowMajor_val_two]
    show b.val = 0 * 1025 + b.val
    omega
  refine (extractStridedSlice_apply _ _ _ (ix1 b) (ix1 (⟨b.val, by omega⟩ : Fin 2049))
    (fun a => match a with | ⟨0, _⟩ => by show b.val = 0 + b.val; omega)).trans ?_
  rfl

end PadRead

section TailRun
variable (m : (ℓ : Loc nD τ sig) → Buf (Elt Ideal) ℓ)

/-- The kernel's first output array after the region, cut to 1025 columns, is its arrangement at (row, column) of the
    argument arrays. -/
private theorem cutXp (c : Dev nD) :
    extractStridedSlice (s := S1024x1152) (α := EReal) S1024x1025 ![0, 0] (Pipeline.withArrays (cfgs 0).spec c (Gen.V0 m c) (fun w => (Gen.dats m 0 c).arrAt w (cfgs 0).N) (Proc.devRef .tc main_v5_0)) slices_S1024x1152_S1024x1025_0_0
      = K.resXp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (congrArg (fun X => extractStridedSlice (s := S1024x1152) (α := EReal) S1024x1025 ![0, 0] X slices_S1024x1152_S1024x1025_0_0)
    ((Pipeline.withArrays_arr spec0 launch0.win.arr_inj c _ _ 9).trans (Arr.final9 m c))).trans ?_
  refine (slice_xp (m ((c.tc : Thread nD τ).loc main_arg0)) (Gen.V m c main_arg1) (Gen.V m c main_arg2) (Gen.V m c main_arg3) (Gen.V m c main_arg4) (Gen.V m c main_arg5) (Gen.V m c main_arg6) (Gen.V m c main_v2) (Gen.V m c main_v3) (V_v2_apply m c) (fun j => congrFun (V_v3 m c) j)).trans ?_
  rw [Gen.V_main_arg1 m c, Gen.V_main_arg2 m c, Gen.V_main_arg3 m c, Gen.V_main_arg4 m c, Gen.V_main_arg5 m c, Gen.V_main_arg6 m c]

/-- The first result: that array kept on the left and its mirror image, subtracted from twice the last column, joined on the right. -/
private theorem tail_main_v17 (c : Dev nD) :
    Pipeline.afterTail₀ cfgs (Gen.dats m) 0 (Gen.V0 m) [Gen.hostOps1] c main_v17
      = Cert.Tail.joinXp (K.resXp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold Pipeline.afterTail₀
  show StableHlo.after Gen.hostOps1 _ (Proc.devRef .tc main_v17) = _
  after_results
  exact congrArg (Cert.Tail.joinXp (F := Ideal)) (cutXp m c)

/-- The kernel's second output array after the region, cut to 1025 columns, is its arrangement at (row, column) of the
    argument arrays. -/
private theorem cutYp (c : Dev nD) :
    extractStridedSlice (s := S1024x1152) (α := EReal) S1024x1025 ![0, 0] (Pipeline.withArrays (cfgs 0).spec c (Gen.V0 m c) (fun w => (Gen.dats m 0 c).arrAt w (cfgs 0).N) (Proc.devRef .tc main_v5_1)) slices_S1024x1152_S1024x1025_0_0
      = K.resYp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (congrArg (fun X => extractStridedSlice (s := S1024x1152) (α := EReal) S1024x1025 ![0, 0] X slices_S1024x1152_S1024x1025_0_0)
    ((Pipeline.withArrays_arr spec0 launch0.win.arr_inj c _ _ 10).trans (Arr.final10 m c))).trans ?_
  refine (slice_yp (m ((c.tc : Thread nD τ).loc main_arg0)) (Gen.V m c main_arg1) (Gen.V m c main_arg2) (Gen.V m c main_arg3) (Gen.V m c main_arg4) (Gen.V m c main_arg5) (Gen.V m c main_arg6) (Gen.V m c main_v2) (Gen.V m c main_v4) (V_v2_apply m c) (fun j => congrFun (V_v4 m c) j)).trans ?_
  rw [Gen.V_main_arg1 m c, Gen.V_main_arg2 m c, Gen.V_main_arg3 m c, Gen.V_main_arg4 m c, Gen.V_main_arg5 m c, Gen.V_main_arg6 m c]

/-- The second result: that array kept on the left and its mirror image, as it is, joined on the right. -/
private theorem tail_main_v20 (c : Dev nD) :
    Pipeline.afterTail₀ cfgs (Gen.dats m) 0 (Gen.V0 m) [Gen.hostOps1] c main_v20
      = Cert.Tail.joinEven (K.resYp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold Pipeline.afterTail₀
  show StableHlo.after Gen.hostOps1 _ (Proc.devRef .tc main_v20) = _
  after_results
  exact congrArg (Cert.Tail.joinEven (F := Ideal)) (cutYp m c)

/-- The kernel's third output array after the region, cut to 1025 columns, is its arrangement at (row, column) of the
    argument arrays. -/
private theorem cutXpp (c : Dev nD) :
    extractStridedSlice (s := S1024x1152) (α := EReal) S1024x1025 ![0, 0] (Pipeline.withArrays (cfgs 0).spec c (Gen.V0 m c) (fun w => (Gen.dats m 0 c).arrAt w (cfgs 0).N) (Proc.devRef .tc main_v5_2)) slices_S1024x1152_S1024x1025_0_0
      = K.resXpp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (congrArg (fun X => extractStridedSlice (s := S1024x1152) (α := EReal) S1024x1025 ![0, 0] X slices_S1024x1152_S1024x1025_0_0)
    ((Pipeline.withArrays_arr spec0 launch0.win.arr_inj c _ _ 11).trans (Arr.final11 m c))).trans ?_
  refine (slice_xpp (m ((c.tc : Thread nD τ).loc main_arg0)) (Gen.V m c main_arg1) (Gen.V m c main_arg2) (Gen.V m c main_arg3) (Gen.V m c main_arg4) (Gen.V m c main_arg5) (Gen.V m c main_arg6) (Gen.V m c main_v2) (Gen.V m c main_v3) (Gen.V m c main_v4) (V_v2_apply m c) (fun j => congrFun (V_v3 m c) j) (fun j => congrFun (V_v4 m c) j)).trans ?_
  rw [Gen.V_main_arg1 m c, Gen.V_main_arg2 m c, Gen.V_main_arg3 m c, Gen.V_main_arg4 m c, Gen.V_main_arg5 m c, Gen.V_main_arg6 m c]

/-- The third result: that array kept on the left and its mirror image, as it is, joined on the right. -/
private theorem tail_main_v23 (c : Dev nD) :
    Pipeline.afterTail₀ cfgs (Gen.dats m) 0 (Gen.V0 m) [Gen.hostOps1] c main_v23
      = Cert.Tail.joinEven (K.resXpp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold Pipeline.afterTail₀
  show StableHlo.after Gen.hostOps1 _ (Proc.devRef .tc main_v23) = _
  after_results
  exact congrArg (Cert.Tail.joinEven (F := Ideal)) (cutXpp m c)

/-- The kernel's fourth output array after the region, cut to 1025 columns, is its arrangement at (row, column) of the
    argument arrays. -/
private theorem cutYpp (c : Dev nD) :
    extractStridedSlice (s := S1024x1152) (α := EReal) S1024x1025 ![0, 0] (Pipeline.withArrays (cfgs 0).spec c (Gen.V0 m c) (fun w => (Gen.dats m 0 c).arrAt w (cfgs 0).N) (Proc.devRef .tc main_v5_3)) slices_S1024x1152_S1024x1025_0_0
      = K.resYpp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (congrArg (fun X => extractStridedSlice (s := S1024x1152) (α := EReal) S1024x1025 ![0, 0] X slices_S1024x1152_S1024x1025_0_0)
    ((Pipeline.withArrays_arr spec0 launch0.win.arr_inj c _ _ 12).trans (Arr.final12 m c))).trans ?_
  refine (slice_ypp (m ((c.tc : Thread nD τ).loc main_arg0)) (Gen.V m c main_arg1) (Gen.V m c main_arg2) (Gen.V m c main_arg3) (Gen.V m c main_arg4) (Gen.V m c main_arg5) (Gen.V m c main_arg6) (Gen.V m c main_v2) (Gen.V m c main_v3) (Gen.V m c main_v4) (V_v2_apply m c) (fun j => congrFun (V_v3 m c) j) (fun j => congrFun (V_v4 m c) j)).trans ?_
  rw [Gen.V_main_arg1 m c, Gen.V_main_arg2 m c, Gen.V_main_arg3 m c, Gen.V_main_arg4 m c, Gen.V_main_arg5 m c, Gen.V_main_arg6 m c]

/-- The fourth result: that array kept on the left and its mirror image, negated, joined on the right. -/
private theorem tail_main_v27 (c : Dev nD) :
    Pipeline.afterTail₀ cfgs (Gen.dats m) 0 (Gen.V0 m) [Gen.hostOps1] c main_v27
      = Cert.Tail.joinOdd (K.resYpp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold Pipeline.afterTail₀
  show StableHlo.after Gen.hostOps1 _ (Proc.devRef .tc main_v27) = _
  after_results
  exact congrArg (Cert.Tail.joinOdd (F := Ideal)) (cutYpp m c)

end TailRun

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = Cert.Tail.joinXp (K.resXp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v20) = Cert.Tail.joinEven (K.resYp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v23) = Cert.Tail.joinEven (K.resXpp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v27) = Cert.Tail.joinOdd (K.resYpp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Gen.run_main m ρ)
  exact ⟨((h c).2 main_v17 (Pipeline.mem_restRefs_of main_v17 (by decide) (by decide))).trans (tail_main_v17 m c),
    ((h c).2 main_v20 (Pipeline.mem_restRefs_of main_v20 (by decide) (by decide))).trans (tail_main_v20 m c),
    ((h c).2 main_v23 (Pipeline.mem_restRefs_of main_v23 (by decide) (by decide))).trans (tail_main_v23 m c),
    ((h c).2 main_v27 (Pipeline.mem_restRefs_of main_v27 (by decide) (by decide))).trans (tail_main_v27 m c),
    ((h c).2 main_arg0 (Pipeline.mem_restRefs_of main_arg0 (by decide) (by decide))).trans (Gen.W_main_arg0 m (Gen.dats m) c),
    ((h c).1 0).trans (((Gen.dats m 0 c).arrAt_in 0 rfl _).trans ((Gen.A_eq m c 0).trans (Gen.V_main_arg1 m c))),
    ((h c).1 1).trans (((Gen.dats m 0 c).arrAt_in 1 rfl _).trans ((Gen.A_eq m c 1).trans (Gen.V_main_arg2 m c))),
    ((h c).1 2).trans (((Gen.dats m 0 c).arrAt_in 2 rfl _).trans ((Gen.A_eq m c 2).trans (Gen.V_main_arg3 m c))),
    ((h c).1 3).trans (((Gen.dats m 0 c).arrAt_in 3 rfl _).trans ((Gen.A_eq m c 3).trans (Gen.V_main_arg4 m c))),
    ((h c).1 4).trans (((Gen.dats m 0 c).arrAt_in 4 rfl _).trans ((Gen.A_eq m c 4).trans (Gen.V_main_arg5 m c))),
    ((h c).1 5).trans (((Gen.dats m 0 c).arrAt_in 5 rfl _).trans ((Gen.A_eq m c 5).trans (Gen.V_main_arg6 m c)))⟩

end Cert.KernelIdeal.Value

end
-- ==== Proof.RefSide.lean ====
/-
  The reference read index by index: each of the four [1024 × 1025] arrays it mirrors and joins is, at a row and
  a column, the reference's arrangement of the row's network applied to the column's angle; and its last
  operations on each are the shared tail.
-/
import proofs.«413713_j38525856645310_4_alg».proof.Proof.Gen.ReferenceIdeal.Read
import proofs.«413713_j38525856645310_4_alg».proof.Proof.MlpSpec
import proofs.«413713_j38525856645310_4_alg».proof.Proof.Tail

noncomputable section

namespace Cert.ReferenceIdeal.Side

open Cert.ReferenceIdeal Cert.ReferenceIdeal.Read Idealize.ShloMosaic Idealize.ShloMosaic.ValueIdx Cert.Mlp

/-! ## The stages at a row, a column and a unit, in the spec's words

  Every stage of the reference is read at literal coordinates. The layout operations (broadcasts, slices, the
  reshape that drops a unit axis) only move coordinates, so each index function sends a coordinate triple to a
  coordinate triple; the arithmetic between them is the extended reals' own. -/

section Stages

variable (x0 : FVec Ideal S2049 .f32) (x1 : FVec Ideal S1024x64x1 .f32) (x2 : FVec Ideal S1024x64x64 .f32)
  (x3 : FVec Ideal S1024x2x64 .f32) (x4 x5 : FVec Ideal S1024x64 .f32) (x6 : FVec Ideal S1024x2 .f32)

/-- The sliced angle array at a column is that column's angle. -/
private theorem v0_at (b : Fin 1025) : val_main_v0 (F := Ideal) x0 (ix1 b) = angle x0 b := by
  rw [val_main_v0_apply]
  unfold angle
  exact congrArg x0 (funext fun a => match a with | ⟨0, _⟩ => rfl)

/-- Broadcast along rows and a unit axis, it is still that angle. -/
private theorem v2_at (n : Fin 1024) (b : Fin 1025) (k : Fin 1) :
    val_main_v2 (F := Ideal) x0 (ix3 n b k) = angle x0 b := by
  rw [val_main_v2_apply, val_main_v1_apply, ← v0_at x0 b]
  exact congrArg (val_main_v0 (F := Ideal) x0) (funext fun a => match a with | ⟨0, _⟩ => rfl)

/-- The first hidden layer: the one-term contraction is the angle times the weight. -/
private theorem h0_at (n : Fin 1024) (b : Fin 1025) (j : Fin 64) :
    val_main_v9 (F := Ideal) x0 x1 x4 (ix3 n b j) = R.h0 (rowAt x1 x2 x3 x4 x5 x6 n) (angle x0 b) j := by
  rw [val_main_v9_apply, val_main_v8_apply, val_main_v4_apply, Fin.sum_univ_one, val_main_v7_apply, val_main_v6_apply]
  have e1 : lidx_main_v4 (ix3 n b j) 0 = ix3 n b (0 : Fin 1) := funext fun a => match a with | ⟨0, _⟩ => rfl | ⟨1, _⟩ => rfl | ⟨2, _⟩ => rfl
  have e2 : ridx_main_v4 (ix3 n b j) 0 = ix3 n j (0 : Fin 1) := funext fun a => match a with | ⟨0, _⟩ => rfl | ⟨1, _⟩ => rfl | ⟨2, _⟩ => rfl
  have e3 : idx_main_v6 (idx_main_v7 (ix3 n b j)) = ix2 n j := funext fun a => match a with | ⟨0, _⟩ => rfl | ⟨1, _⟩ => rfl
  rw [e1, e2, e3, v2_at]
  rfl

/-- The tangent entering the first layer: the literal one times the weight. -/
private theorem g0_at (n : Fin 1024) (b : Fin 1025) (j : Fin 64) :
    val_main_v5 (F := Ideal) x1 (ix3 n b j) = R.g0 (rowAt x1 x2 x3 x4 x5 x6 n) j := by
  rw [val_main_v5_apply, Fin.sum_univ_one, val_main_v3_apply, val_main_cst_apply]
  have e2 : ridx_main_v5 (ix3 n b j) 0 = ix3 n j (0 : Fin 1) := funext fun a => match a with | ⟨0, _⟩ => rfl | ⟨1, _⟩ => rfl | ⟨2, _⟩ => rfl
  rw [e2]
  rfl

/-- The first hidden layer's derivative, as forward differentiation writes it. -/
private theorem dh0_at (n : Fin 1024) (b : Fin 1025) (j : Fin 64) :
    val_main_v14 (F := Ideal) x0 x1 x4 (ix3 n b j) = R.dh0 (rowAt x1 x2 x3 x4 x5 x6 n) (angle x0 b) j := by
  rw [val_main_v14_apply, val_main_v11_apply, val_main_v10_apply, val_main_v13_apply, val_main_v12_apply,
    val_main_cst_0_apply, g0_at x1 x2 x3 x4 x5 x6 n b j, h0_at x0 x1 x2 x3 x4 x5 x6 n b j]
  rfl

/-- The second layer before its activation: a sum over the 64 hidden units, then the bias. -/
private theorem pre1_at (n : Fin 1024) (b : Fin 1025) (i : Fin 64) :
    val_main_v19 (F := Ideal) x0 x1 x2 x4 x5 (ix3 n b i) = R.pre1 (rowAt x1 x2 x3 x4 x5 x6 n) (angle x0 b) i := by
  rw [val_main_v19_apply, val_main_v15_apply, val_main_v18_apply, val_main_v17_apply]
  have e3 : idx_main_v17 (idx_main_v18 (ix3 n b i)) = ix2 n i := funext fun a => match a with | ⟨0, _⟩ => rfl | ⟨1, _⟩ => rfl
  rw [e3, Ideal.addf_def]
  unfold R.pre1
  refine congrArg₂ (· + ·) (Finset.sum_congr rfl fun k _ => ?_) rfl
  have el : lidx_main_v15 (ix3 n b i) k = ix3 n b k := funext fun a => match a with | ⟨0, _⟩ => rfl | ⟨1, _⟩ => rfl | ⟨2, _⟩ => rfl
  have er : ridx_main_v15 (ix3 n b i) k = ix3 n i k := funext fun a => match a with | ⟨0, _⟩ => rfl | ⟨1, _⟩ => rfl | ⟨2, _⟩ => rfl
  rw [el, er, h0_at x0 x1 x2 x3 x4 x5 x6 n b k]
  rfl

/-- Its derivative: the same sum over the first layer's derivatives. -/
private theorem dpre1_at (n : Fin 1024) (b : Fin 1025) (i : Fin 64) :
    val_main_v16 (F := Ideal) x0 x1 x2 x4 (ix3 n b i) = R.dpre1 (rowAt x1 x2 x3 x4 x5 x6 n) (angle x0 b) i := by
  rw [val_main_v16_apply]
  unfold R.dpre1
  refine Finset.sum_congr rfl fun k _ => ?_
  have el : lidx_main_v16 (ix3 n b i) k = ix3 n b k := funext fun a => match a with | ⟨0, _⟩ => rfl | ⟨1, _⟩ => rfl | ⟨2, _⟩ => rfl
  have er : ridx_main_v16 (ix3 n b i) k = ix3 n i k := funext fun a => match a with | ⟨0, _⟩ => rfl | ⟨1, _⟩ => rfl | ⟨2, _⟩ => rfl
  rw [el, er, dh0_at x0 x1 x2 x3 x4 x5 x6 n b k]
  rfl

/-- The second hidden layer. -/
private theorem h1_at (n : Fin 1024) (b : Fin 1025) (i : Fin 64) :
    val_main_v20 (F := Ideal) x0 x1 x2 x4 x5 (ix3 n b i) = R.h1 (rowAt x1 x2 x3 x4 x5 x6 n) (angle x0 b) i := by
  rw [val_main_v20_apply, pre1_at x0 x1 x2 x3 x4 x5 x6 n b i]
  rfl

/-- Its derivative. -/
private theorem dh1_at (n : Fin 1024) (b : Fin 1025) (i : Fin 64) :
    val_main_v25 (F := Ideal) x0 x1 x2 x4 x5 (ix3 n b i) = R.dh1 (rowAt x1 x2 x3 x4 x5 x6 n) (angle x0 b) i := by
  rw [val_main_v25_apply, val_main_v22_apply, val_main_v21_apply, val_main_v24_apply, val_main_v23_apply,
    val_main_cst_1_apply, dpre1_at x0 x1 x2 x3 x4 x5 x6 n b i, h1_at x0 x1 x2 x3 x4 x5 x6 n b i]
  rfl

/-- The two linear outputs. -/
private theorem lin_at (n : Fin 1024) (b : Fin 1025) (i : Fin 2) :
    val_main_v30 (F := Ideal) x0 x1 x2 x3 x4 x5 x6 (ix3 n b i) = R.lin (rowAt x1 x2 x3 x4 x5 x6 n) (angle x0 b) i := by
  rw [val_main_v30_apply, val_main_v26_apply, val_main_v29_apply, val_main_v28_apply]
  have e3 : idx_main_v28 (idx_main_v29 (ix3 n b i)) = ix2 n i := funext fun a => match a with | ⟨0, _⟩ => rfl | ⟨1, _⟩ => rfl
  rw [e3, Ideal.addf_def]
  unfold R.lin
  refine congrArg₂ (· + ·) (Finset.sum_congr rfl fun k _ => ?_) rfl
  have el : lidx_main_v26 (ix3 n b i) k = ix3 n b k := funext fun a => match a with | ⟨0, _⟩ => rfl | ⟨1, _⟩ => rfl | ⟨2, _⟩ => rfl
  have er : ridx_main_v26 (ix3 n b i) k = ix3 n i k := funext fun a => match a with | ⟨0, _⟩ => rfl | ⟨1, _⟩ => rfl | ⟨2, _⟩ => rfl
  rw [el, er, h1_at x0 x1 x2 x3 x4 x5 x6 n b k]
  rfl

/-- Their derivatives. -/
private theorem dlin_at (n : Fin 1024) (b : Fin 1025) (i : Fin 2) :
    val_main_v27 (F := Ideal) x0 x1 x2 x3 x4 x5 (ix3 n b i) = R.dlin (rowAt x1 x2 x3 x4 x5 x6 n) (angle x0 b) i := by
  rw [val_main_v27_apply]
  unfold R.dlin
  refine Finset.sum_congr rfl fun k _ => ?_
  have el : lidx_main_v27 (ix3 n b i) k = ix3 n b k := funext fun a => match a with | ⟨0, _⟩ => rfl | ⟨1, _⟩ => rfl | ⟨2, _⟩ => rfl
  have er : ridx_main_v27 (ix3 n b i) k = ix3 n i k := funext fun a => match a with | ⟨0, _⟩ => rfl | ⟨1, _⟩ => rfl | ⟨2, _⟩ => rfl
  rw [el, er, dh1_at x0 x1 x2 x3 x4 x5 x6 n b k]
  rfl

/-- The squared outputs. -/
private theorem sqr_at (n : Fin 1024) (b : Fin 1025) (i : Fin 2) :
    val_main_v31 (F := Ideal) x0 x1 x2 x3 x4 x5 x6 (ix3 n b i) = R.sqr (rowAt x1 x2 x3 x4 x5 x6 n) (angle x0 b) i := by
  rw [val_main_v31_apply, lin_at x0 x1 x2 x3 x4 x5 x6 n b i]
  rfl

/-- The squares' derivatives, both orders of the product rule. -/
private theorem dsqr_at (n : Fin 1024) (b : Fin 1025) (i : Fin 2) :
    val_main_v34 (F := Ideal) x0 x1 x2 x3 x4 x5 x6 (ix3 n b i) = R.dsqr (rowAt x1 x2 x3 x4 x5 x6 n) (angle x0 b) i := by
  rw [val_main_v34_apply, val_main_v32_apply, val_main_v33_apply, lin_at x0 x1 x2 x3 x4 x5 x6 n b i,
    dlin_at x0 x1 x2 x3 x4 x5 x6 n b i]
  rfl

end Stages

/-! ## The four arrays' factors at a row and a column

  A slice of the last axis followed by the reshape that drops it picks one of the two outputs; the reshape's
  flat position of (row, column) in a [1024 × 1025 × 1] array is row · 1025 + column, whose quotient and remainder by
  1025 are the row and the column again. The cosine and sine rows are broadcast down the rows. -/

section Arrays

variable (x0 : FVec Ideal S2049 .f32) (x1 : FVec Ideal S1024x64x1 .f32) (x2 : FVec Ideal S1024x64x64 .f32)
  (x3 : FVec Ideal S1024x2x64 .f32) (x4 x5 : FVec Ideal S1024x64 .f32) (x6 : FVec Ideal S1024x2 .f32)

/-- The first squared output as a [1024 × 1025] array. -/
private theorem v36_at (n : Fin 1024) (b : Fin 1025) :
    val_main_v36 (F := Ideal) x0 x1 x2 x3 x4 x5 x6 (ix2 n b) = R.sqr (rowAt x1 x2 x3 x4 x5 x6 n) (angle x0 b) 0 := by
  rw [val_main_v36_apply, val_main_v35_apply]
  have e : idx_main_v35 (idx_main_v36 (ix2 n b)) = ix3 n b (0 : Fin 2) :=
    funext fun a => match a with
      | ⟨0, _⟩ => Fin.ext (by show (n.val * 1025 + b.val) / 1025 = n.val; have := b.isLt; omega)
      | ⟨1, _⟩ => Fin.ext (by show (n.val * 1025 + b.val) / 1 % 1025 = b.val; have := b.isLt; omega)
      | ⟨2, _⟩ => rfl
  rw [e, sqr_at]

/-- The second squared output. -/
private theorem v38_at (n : Fin 1024) (b : Fin 1025) :
    val_main_v38 (F := Ideal) x0 x1 x2 x3 x4 x5 x6 (ix2 n b) = R.sqr (rowAt x1 x2 x3 x4 x5 x6 n) (angle x0 b) 1 := by
  rw [val_main_v38_apply, val_main_v37_apply]
  have e : idx_main_v37 (idx_main_v38 (ix2 n b)) = ix3 n b (1 : Fin 2) :=
    funext fun a => match a with
      | ⟨0, _⟩ => Fin.ext (by show (n.val * 1025 + b.val) / 1025 = n.val; have := b.isLt; omega)
      | ⟨1, _⟩ => Fin.ext (by show (n.val * 1025 + b.val) / 1 % 1025 = b.val; have := b.isLt; omega)
      | ⟨2, _⟩ => rfl
  rw [e, sqr_at]

/-- The first squared output's derivative. -/
private theorem v40_at (n : Fin 1024) (b : Fin 1025) :
    val_main_v40 (F := Ideal) x0 x1 x2 x3 x4 x5 x6 (ix2 n b) = R.dsqr (rowAt x1 x2 x3 x4 x5 x6 n) (angle x0 b) 0 := by
  rw [val_main_v40_apply, val_main_v39_apply]
  have e : idx_main_v39 (idx_main_v40 (ix2 n b)) = ix3 n b (0 : Fin 2) :=
    funext fun a => match a with
      | ⟨0, _⟩ => Fin.ext (by show (n.val * 1025 + b.val) / 1025 = n.val; have := b.isLt; omega)
      | ⟨1, _⟩ => Fin.ext (by show (n.val * 1025 + b.val) / 1 % 1025 = b.val; have := b.isLt; omega)
      | ⟨2, _⟩ => rfl
  rw [e, dsqr_at]

/-- The second squared output's derivative. -/
private theorem v42_at (n : Fin 1024) (b : Fin 1025) :
    val_main_v42 (F := Ideal) x0 x1 x2 x3 x4 x5 x6 (ix2 n b) = R.dsqr (rowAt x1 x2 x3 x4 x5 x6 n) (angle x0 b) 1 := by
  rw [val_main_v42_apply, val_main_v41_apply]
  have e : idx_main_v41 (idx_main_v42 (ix2 n b)) = ix3 n b (1 : Fin 2) :=
    funext fun a => match a with
      | ⟨0, _⟩ => Fin.ext (by show (n.val * 1025 + b.val) / 1025 = n.val; have := b.isLt; omega)
      | ⟨1, _⟩ => Fin.ext (by show (n.val * 1025 + b.val) / 1 % 1025 = b.val; have := b.isLt; omega)
      | ⟨2, _⟩ => rfl
  rw [e, dsqr_at]

/-- The cosine row at a column. -/
private theorem cos_at (b : Fin 1025) :
    val_main_v44 (F := Ideal) x0 (ix2 (0 : Fin 1) b) = Ideal.cos (angle x0 b) := by
  rw [val_main_v44_apply, val_main_v43_apply, ← v0_at x0 b]
  have e : idx_main_v44 (ix2 (0 : Fin 1) b) = ix1 b := funext fun a => match a with | ⟨0, _⟩ => rfl
  rw [e]
  rfl

/-- The sine row at a column. -/
private theorem sin_at (b : Fin 1025) :
    val_main_v46 (F := Ideal) x0 (ix2 (0 : Fin 1) b) = Ideal.sin (angle x0 b) := by
  rw [val_main_v46_apply, val_main_v45_apply, ← v0_at x0 b]
  have e : idx_main_v46 (ix2 (0 : Fin 1) b) = ix1 b := funext fun a => match a with | ⟨0, _⟩ => rfl
  rw [e]
  rfl

/-- Cosine less one, broadcast down the rows (its first use). -/
private theorem v49_at (n : Fin 1024) (b : Fin 1025) :
    val_main_v49 (F := Ideal) x0 (ix2 n b) = Ideal.cos (angle x0 b) - c1 := by
  rw [val_main_v49_apply, val_main_v48_apply, val_main_v47_apply, val_main_cst_2_apply]
  have e : idx_main_v49 (ix2 n b) = ix2 (0 : Fin 1) b := funext fun a => match a with | ⟨0, _⟩ => rfl | ⟨1, _⟩ => rfl
  rw [e, cos_at]
  rfl

/-- Cosine less one, broadcast down the rows (its second use). -/
private theorem v58_at (n : Fin 1024) (b : Fin 1025) :
    val_main_v58 (F := Ideal) x0 (ix2 n b) = Ideal.cos (angle x0 b) - c1 := by
  rw [val_main_v58_apply, val_main_v57_apply, val_main_v56_apply, val_main_cst_3_apply]
  have e : idx_main_v58 (ix2 n b) = ix2 (0 : Fin 1) b := funext fun a => match a with | ⟨0, _⟩ => rfl | ⟨1, _⟩ => rfl
  rw [e, cos_at]
  rfl

/-- The sine broadcast down the rows (three uses). -/
private theorem v51_at (n : Fin 1024) (b : Fin 1025) :
    val_main_v51 (F := Ideal) x0 (ix2 n b) = Ideal.sin (angle x0 b) := by
  rw [val_main_v51_apply]
  have e : idx_main_v51 (ix2 n b) = ix2 (0 : Fin 1) b := funext fun a => match a with | ⟨0, _⟩ => rfl | ⟨1, _⟩ => rfl
  rw [e, sin_at]

private theorem v54_at (n : Fin 1024) (b : Fin 1025) :
    val_main_v54 (F := Ideal) x0 (ix2 n b) = Ideal.sin (angle x0 b) := by
  rw [val_main_v54_apply]
  have e : idx_main_v54 (ix2 n b) = ix2 (0 : Fin 1) b := funext fun a => match a with | ⟨0, _⟩ => rfl | ⟨1, _⟩ => rfl
  rw [e, sin_at]

private theorem v63_at (n : Fin 1024) (b : Fin 1025) :
    val_main_v63 (F := Ideal) x0 (ix2 n b) = Ideal.sin (angle x0 b) := by
  rw [val_main_v63_apply]
  have e : idx_main_v63 (ix2 n b) = ix2 (0 : Fin 1) b := funext fun a => match a with | ⟨0, _⟩ => rfl | ⟨1, _⟩ => rfl
  rw [e, sin_at]

/-- The cosine broadcast down the rows. -/
private theorem v61_at (n : Fin 1024) (b : Fin 1025) :
    val_main_v61 (F := Ideal) x0 (ix2 n b) = Ideal.cos (angle x0 b) := by
  rw [val_main_v61_apply]
  have e : idx_main_v61 (ix2 n b) = ix2 (0 : Fin 1) b := funext fun a => match a with | ⟨0, _⟩ => rfl | ⟨1, _⟩ => rfl
  rw [e, cos_at]

end Arrays

/-! ## The four arrays -/

theorem v50_eq (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v50 (F := Ideal) x0 x1 x2 x3 x4 x5 x6 = R.resXp x0 x1 x2 x3 x4 x5 x6 := by
  funext i
  obtain ⟨n, b, rfl⟩ : ∃ (n : Fin 1024) (b : Fin 1025), i = ix2 n b := ⟨i 0, i 1, eq_ix2 i⟩
  rw [val_main_v50_apply, v36_at, v49_at]
  rfl

theorem v52_eq (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v52 (F := Ideal) x0 x1 x2 x3 x4 x5 x6 = R.resYp x0 x1 x2 x3 x4 x5 x6 := by
  funext i
  obtain ⟨n, b, rfl⟩ : ∃ (n : Fin 1024) (b : Fin 1025), i = ix2 n b := ⟨i 0, i 1, eq_ix2 i⟩
  rw [val_main_v52_apply, v38_at, v51_at]
  rfl

theorem v60_eq (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v60 (F := Ideal) x0 x1 x2 x3 x4 x5 x6 = R.resXpp x0 x1 x2 x3 x4 x5 x6 := by
  funext i
  obtain ⟨n, b, rfl⟩ : ∃ (n : Fin 1024) (b : Fin 1025), i = ix2 n b := ⟨i 0, i 1, eq_ix2 i⟩
  rw [val_main_v60_apply, val_main_v55_apply, val_main_v53_apply, val_main_v59_apply, v36_at, v54_at, v40_at, v58_at]
  rfl

theorem v65_eq (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v65 (F := Ideal) x0 x1 x2 x3 x4 x5 x6 = R.resYpp x0 x1 x2 x3 x4 x5 x6 := by
  funext i
  obtain ⟨n, b, rfl⟩ : ∃ (n : Fin 1024) (b : Fin 1025), i = ix2 n b := ⟨i 0, i 1, eq_ix2 i⟩
  rw [val_main_v65_apply, val_main_v62_apply, val_main_v64_apply, v38_at, v61_at, v42_at, v63_at]
  rfl

theorem v73_tail (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v73 (F := Ideal) x0 x1 x2 x3 x4 x5 x6 = Cert.Tail.joinXp (F := Ideal) (val_main_v50 (F := Ideal) x0 x1 x2 x3 x4 x5 x6) := rfl

theorem v76_tail (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v76 (F := Ideal) x0 x1 x2 x3 x4 x5 x6 = Cert.Tail.joinEven (F := Ideal) (val_main_v52 (F := Ideal) x0 x1 x2 x3 x4 x5 x6) := rfl

theorem v79_tail (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v79 (F := Ideal) x0 x1 x2 x3 x4 x5 x6 = Cert.Tail.joinEven (F := Ideal) (val_main_v60 (F := Ideal) x0 x1 x2 x3 x4 x5 x6) := rfl

theorem v83_tail (x0 : FVec Ideal S2049 .f32) (x1 : FVec Ideal S1024x64x1 .f32) (x2 : FVec Ideal S1024x64x64 .f32)
    (x3 : FVec Ideal S1024x2x64 .f32) (x4 x5 : FVec Ideal S1024x64 .f32) (x6 : FVec Ideal S1024x2 .f32) :
    val_main_v83 (F := Ideal) x0 x1 x2 x3 x4 x5 x6 = Cert.Tail.joinOdd (F := Ideal) (val_main_v65 (F := Ideal) x0 x1 x2 x3 x4 x5 x6) := rfl

end Cert.ReferenceIdeal.Side

end
-- ==== Proof.MlpAlgebra.lean ====
/-
  The two arrangements of a row's network agree wherever the row's weights are real numbers.

  Three places differ by more than the order of a product. The derivative of `tanh`: the kernel's `(1 - h²) · g`
  against the reference's `(g + g · h) · (1 - h)`, equal over the reals (`(1 + h)(1 - h) = 1 - h²`) but not at an
  infinite `g`, so `g` must be real: in the first layer `g` is a weight, in the second a finite sum of products of
  weights with first-layer derivatives. A value of `tanh` is always real. The derivative of the square:
  `(2 · l) · d` against `d · l + l · d`. And `0 - a` against `-a`. Everything else is commutativity of a product
  under a sum of 64 terms taken in the same order.
-/
import proofs.«413713_j38525856645310_4_alg».proof.Proof.MlpSpec
import Idealize.ShloMosaic.PureOps.Ideal.Laws

noncomputable section

namespace Cert.Mlp

open Idealize.ShloMosaic

/-! ## The literals -/

theorem c0_eq : c0 = 0 := Ideal.ofBits_zero_f32
theorem c1_eq : c1 = ((1 : ℝ) : EReal) := by
  simp [c1, Ideal.ofBits, Ideal.ieee, -EReal.coe_mul]; norm_num
theorem c2_eq : c2 = ((2 : ℝ) : EReal) := by
  simp [c2, Ideal.ofBits, Ideal.ieee, -EReal.coe_mul]; norm_num

/-! ## Real values -/

/-- A value of `tanh` is a real number, at the infinities too (`-1` and `1`). -/
theorem tanh_real (y : EReal) : ∃ v : ℝ, Ideal.tanh y = (v : EReal) := by
  induction y using EReal.rec with
  | bot => exact ⟨-1, by simp⟩
  | top => exact ⟨1, by simp⟩
  | coe r => exact ⟨Real.tanh r, rfl⟩

/-- The coercion of a finite sum of reals is the sum of the coercions. -/
theorem coe_sum {ι : Type*} (s : Finset ι) (g : ι → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- A finite sum of real values is a real value. -/
theorem sum_real {n : Nat} (f : Fin n → EReal) (h : ∀ j, ∃ v : ℝ, f j = (v : EReal)) : ∃ v : ℝ, ∑ j, f j = (v : EReal) := by
  choose g hg using h
  exact ⟨∑ j, g j, by rw [coe_sum]; exact Finset.sum_congr rfl fun j _ => hg j⟩

theorem mul_real {a b : EReal} (ha : ∃ v : ℝ, a = (v : EReal)) (hb : ∃ v : ℝ, b = (v : EReal)) : ∃ v : ℝ, a * b = (v : EReal) := by
  obtain ⟨u, rfl⟩ := ha; obtain ⟨v, rfl⟩ := hb; exact ⟨u * v, (EReal.coe_mul u v).symm⟩

theorem add_real {a b : EReal} (ha : ∃ v : ℝ, a = (v : EReal)) (hb : ∃ v : ℝ, b = (v : EReal)) : ∃ v : ℝ, a + b = (v : EReal) := by
  obtain ⟨u, rfl⟩ := ha; obtain ⟨v, rfl⟩ := hb; exact ⟨u + v, (EReal.coe_add u v).symm⟩

/-! ## The three identities, over the reals -/

/-- The derivative of `tanh`, with the factor one the first layer's tangent carries (`e = 1`). -/
theorem jvp_tanh (e g h : ℝ) (he : e = 1) :
    (((e : EReal) * g) + ((e : EReal) * g) * h) * ((1 : ℝ) - (h : EReal)) = (((1 : ℝ) : EReal) - (h : EReal) * h) * g := by
  subst he; norm_cast; ring

theorem jvp_tanh' (g h : ℝ) :
    ((g : EReal) + (g : EReal) * h) * ((1 : ℝ) - (h : EReal)) = (((1 : ℝ) : EReal) - (h : EReal) * h) * g := by
  norm_cast; ring

/-- The derivative of a square. -/
theorem jvp_sq (l d : ℝ) : (((2 : ℝ) : EReal) * l) * d = (d : EReal) * l + (l : EReal) * d := by
  norm_cast; ring

/-! ## Layer by layer -/

section
variable (r : Row) (x : EReal)
  (hw0 : ∀ j, ∃ v : ℝ, r.w0 j = (v : EReal)) (hw1 : ∀ i j, ∃ v : ℝ, r.w1 i j = (v : EReal))
  (hw2 : ∀ i j, ∃ v : ℝ, r.w2 i j = (v : EReal)) (hb2 : ∀ i, ∃ v : ℝ, r.b2 i = (v : EReal))

theorem h0_eq (j : Fin 64) : K.h0 r x j = R.h0 r x j := by
  unfold K.h0 R.h0; rw [mul_comm]

include hw0 in
theorem dh0_eq (j : Fin 64) : K.dh0 r x j = R.dh0 r x j := by
  unfold K.dh0 R.dh0 R.g0
  rw [h0_eq]
  obtain ⟨h, hh⟩ : ∃ v : ℝ, R.h0 r x j = (v : EReal) := tanh_real _
  obtain ⟨w, hw⟩ := hw0 j
  rw [hh, hw, c1_eq]
  exact (jvp_tanh 1 w h rfl).symm

include hw0 in
theorem dh0_real (j : Fin 64) : ∃ v : ℝ, K.dh0 r x j = (v : EReal) := by
  unfold K.dh0
  obtain ⟨h, hh⟩ : ∃ v : ℝ, K.h0 r x j = (v : EReal) := tanh_real _
  obtain ⟨w, hw⟩ := hw0 j
  rw [hh, hw, c1_eq]
  exact ⟨(1 - h * h) * w, by norm_cast⟩

theorem pre1_eq (i : Fin 64) : K.pre1 r x i = R.pre1 r x i := by
  unfold K.pre1 R.pre1
  exact congrArg (· + r.b1 i) (Finset.sum_congr rfl fun j _ => by rw [h0_eq, mul_comm])

include hw0 in
theorem dpre1_eq (i : Fin 64) : K.dpre1 r x i = R.dpre1 r x i := by
  unfold K.dpre1 R.dpre1
  exact Finset.sum_congr rfl fun j _ => by rw [dh0_eq r x hw0, mul_comm]

include hw0 hw1 in
theorem dpre1_real (i : Fin 64) : ∃ v : ℝ, K.dpre1 r x i = (v : EReal) :=
  sum_real _ fun j => mul_real (hw1 i j) (dh0_real r x hw0 j)

theorem h1_eq (i : Fin 64) : K.h1 r x i = R.h1 r x i := by
  unfold K.h1 R.h1; rw [pre1_eq]

include hw0 hw1 in
theorem dh1_eq (i : Fin 64) : K.dh1 r x i = R.dh1 r x i := by
  unfold K.dh1 R.dh1
  rw [← dpre1_eq r x hw0, ← h1_eq]
  obtain ⟨h, hh⟩ : ∃ v : ℝ, K.h1 r x i = (v : EReal) := tanh_real _
  obtain ⟨d, hd⟩ := dpre1_real r x hw0 hw1 i
  rw [hh, hd, c1_eq]
  exact (jvp_tanh' d h).symm

include hw0 hw1 in
theorem dh1_real (i : Fin 64) : ∃ v : ℝ, K.dh1 r x i = (v : EReal) := by
  unfold K.dh1
  obtain ⟨h, hh⟩ : ∃ v : ℝ, K.h1 r x i = (v : EReal) := tanh_real _
  obtain ⟨d, hd⟩ := dpre1_real r x hw0 hw1 i
  rw [hh, hd, c1_eq]
  exact ⟨(1 - h * h) * d, by norm_cast⟩

theorem lin_eq (i : Fin 2) : K.lin r x i = R.lin r x i := by
  unfold K.lin R.lin
  exact congrArg (· + r.b2 i) (Finset.sum_congr rfl fun j _ => by rw [h1_eq, mul_comm])

include hw0 hw1 in
theorem dlin_eq (i : Fin 2) : K.dlin r x i = R.dlin r x i := by
  unfold K.dlin R.dlin
  exact Finset.sum_congr rfl fun j _ => by rw [dh1_eq r x hw0 hw1, mul_comm]

include hw2 hb2 in
theorem lin_real (i : Fin 2) : ∃ v : ℝ, K.lin r x i = (v : EReal) := by
  unfold K.lin
  exact add_real (sum_real _ fun j => mul_real (hw2 i j) (tanh_real _)) (hb2 i)

include hw0 hw1 hw2 in
theorem dlin_real (i : Fin 2) : ∃ v : ℝ, K.dlin r x i = (v : EReal) :=
  sum_real _ fun j => mul_real (hw2 i j) (dh1_real r x hw0 hw1 j)

include hw0 hw1 hw2 hb2 in
/-- The derivative of the squared output, in the two arrangements. -/
theorem dsq_eq (i : Fin 2) : (c2 * K.lin r x i) * K.dlin r x i = R.dsqr r x i := by
  unfold R.dsqr
  rw [← lin_eq, ← dlin_eq r x hw0 hw1]
  obtain ⟨l, hl⟩ := lin_real r x hw2 hb2 i
  obtain ⟨d, hd⟩ := dlin_real r x hw0 hw1 hw2 i
  rw [hl, hd, c2_eq]
  exact jvp_sq l d

/-! ## The four results -/

theorem xp_eq (ca : EReal) : K.xp r x ca = R.xp r x ca := by
  unfold K.xp R.xp R.sqr; rw [lin_eq]

theorem yp_eq (sa : EReal) : K.yp r x sa = R.yp r x sa := by
  unfold K.yp R.yp R.sqr; rw [lin_eq]

include hw0 hw1 hw2 hb2 in
theorem xpp_eq (ca sa : EReal) : K.xpp r x ca sa = R.xpp r x ca sa := by
  unfold K.xpp R.xpp R.sqr
  rw [dsq_eq r x hw0 hw1 hw2 hb2, lin_eq, c0_eq, zero_sub]

include hw0 hw1 hw2 hb2 in
theorem ypp_eq (ca sa : EReal) : K.ypp r x ca sa = R.ypp r x ca sa := by
  unfold K.ypp R.ypp R.sqr
  rw [dsq_eq r x hw0 hw1 hw2 hb2, lin_eq]

end

/-! ## Whole arrays -/

section
variable (AL : FVec Ideal ⟨1, ![2049]⟩ .f32)
  (W0 : FVec Ideal ⟨3, ![1024, 64, 1]⟩ .f32) (W1 : FVec Ideal ⟨3, ![1024, 64, 64]⟩ .f32)
  (W2 : FVec Ideal ⟨3, ![1024, 2, 64]⟩ .f32) (B0 B1 : FVec Ideal ⟨2, ![1024, 64]⟩ .f32)
  (B2 : FVec Ideal ⟨2, ![1024, 2]⟩ .f32)
  (h0 : ∀ i, ∃ v : ℝ, W0 i = (v : EReal)) (h1 : ∀ i, ∃ v : ℝ, W1 i = (v : EReal))
  (h2 : ∀ i, ∃ v : ℝ, W2 i = (v : EReal)) (h6 : ∀ i, ∃ v : ℝ, B2 i = (v : EReal))

theorem resXp_eq : K.resXp AL W0 W1 W2 B0 B1 B2 = R.resXp AL W0 W1 W2 B0 B1 B2 :=
  funext fun _ => xp_eq _ _ _

theorem resYp_eq : K.resYp AL W0 W1 W2 B0 B1 B2 = R.resYp AL W0 W1 W2 B0 B1 B2 :=
  funext fun _ => yp_eq _ _ _

include h0 h1 h2 h6 in
theorem resXpp_eq : K.resXpp AL W0 W1 W2 B0 B1 B2 = R.resXpp AL W0 W1 W2 B0 B1 B2 :=
  funext fun _ => xpp_eq _ _ (fun _ => h0 _) (fun _ _ => h1 _) (fun _ _ => h2 _) (fun _ => h6 _) _ _

include h0 h1 h2 h6 in
theorem resYpp_eq : K.resYpp AL W0 W1 W2 B0 B1 B2 = R.resYpp AL W0 W1 W2 B0 B1 B2 :=
  funext fun _ => ypp_eq _ _ (fun _ => h0 _) (fun _ _ => h1 _) (fun _ _ => h2 _) (fun _ => h6 _) _ _

end

end Cert.Mlp

end
-- ==== Proof.Finite.lean ====
/-
  The precondition read back: when the printed predicate holds of seven arrays, every entry of each is a real
  number (neither infinity).
-/
import proofs.«413713_j38525856645310_4_alg».proof.Pre_finite_inputs
import proofs.«413713_j38525856645310_4_alg».proof.Proof.Gen.Pre_finite_inputs
import Idealize.ShloMosaic.PureOps.Ideal
import Idealize.ShloMosaic.Lib.ValueIdx
import Idealize.ShloMosaic.Lib.ReduceAll

noncomputable section

namespace Cert.Finite

open Cert.Pre_finite_inputs Idealize.ShloMosaic Idealize.ShloMosaic.ValueIdx

/-- The bound the test compares against, the word 0x7F800000, denotes +∞. -/
private theorem inf_word : Ideal.ofBits .f32 0x7F800000#32 = (⊤ : EReal) := by
  simp [Ideal.ofBits, Ideal.ieee]

/-- An extended real whose absolute value max x (−x) lies strictly below +∞ is a real number: at −∞ and at +∞
    the absolute value is +∞ itself. -/
private theorem real_of_abs_lt_inf (x : EReal)
    (h : Ideal.cmp .olt (max x (-x)) (Ideal.ofBits .f32 0x7F800000#32) = 1#1) : ∃ v : ℝ, x = (v : EReal) := by
  rw [inf_word] at h
  induction x using EReal.rec with
  | bot => simp [Ideal.cmp] at h
  | coe r => exact ⟨r, rfl⟩
  | top => simp [Ideal.cmp] at h

/-- Over any shape: when the conjunction, over every entry, of the test |a i| < +∞ comes out true, every entry of
    the array is a real number. The conjunction lands in a result with a single index, so it speaks of all entries. -/
private theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf a) (broadcastInDim s ![] hb (constant S_ .f32 0x7F800000#32)))
      init hr hu j = 1#1) (i : s.Idx) : ∃ v : ℝ, a i = (v : EReal) := by
  haveI : Subsingleton S_.Idx := ⟨fun p q => funext fun d => d.elim0⟩
  exact real_of_abs_lt_inf (a i) (Host.reduce_andi_all _ init hr hu j e i)

theorem real_of_pre (a0 : FVec Ideal S2049 .f32) (a1 : FVec Ideal S1024x64x1 .f32) (a2 : FVec Ideal S1024x64x64 .f32)
    (a3 : FVec Ideal S1024x2x64 .f32) (a4 a5 : FVec Ideal S1024x64 .f32) (a6 : FVec Ideal S1024x2 .f32)
    (h : Cert.Pre_finite_inputs.fn (F := Ideal) a0 a1 a2 a3 a4 a5 a6 = fun _ => 1#1) :
    (∀ i, ∃ v : ℝ, a0 i = (v : EReal)) ∧ (∀ i, ∃ v : ℝ, a1 i = (v : EReal)) ∧ (∀ i, ∃ v : ℝ, a2 i = (v : EReal))
    ∧ (∀ i, ∃ v : ℝ, a3 i = (v : EReal)) ∧ (∀ i, ∃ v : ℝ, a4 i = (v : EReal)) ∧ (∀ i, ∃ v : ℝ, a5 i = (v : EReal))
    ∧ (∀ i, ∃ v : ℝ, a6 i = (v : EReal)) := by
  -- the predicate at its one index is a six-fold conjunction of seven per-array tests: take them apart, last first
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6⟩

end Cert.Finite

end
-- ==== Proof.lean ====
/-
  Both programs evaluate, for each of 1024 rows of parameters and each of the first 1025 angles, a three-layer
  `tanh` network on the angle together with its derivative in the angle, square its two outputs, and combine squares
  and derivatives with `cos - 1`, `sin` and `cos` of the angle into four [1024 × 1025] arrays; each array is then
  extended to 2049 columns by its own mirror image (as it is, negated, or subtracted from twice the last column).

  The kernel does the first part eight rows at a time on a lane axis padded to 1152 columns and cuts the padding off
  again; read entry by entry its arrays are the kernel's arrangement of the network (`Cert.Mlp.K`). The reference's
  arrays are forward-mode differentiation's arrangement (`Cert.Mlp.R`). The two agree where the weights are real
  numbers, which the precondition says of every input; the mirror-and-join tail is one function on both sides.
  Bfloat16 casts before the kernel's matrix products are the identity on extended reals, and a product
  accumulated into zero is the plain sum, so nothing else separates the sides.
-/
import proofs.«413713_j38525856645310_4_alg».proof.Defs
import proofs.«413713_j38525856645310_4_alg».proof.Proof.Gen.Kernel
import proofs.«413713_j38525856645310_4_alg».proof.Proof.Gen.Kernel.Frame
import proofs.«413713_j38525856645310_4_alg».proof.Proof.Gen.KernelIdeal
import proofs.«413713_j38525856645310_4_alg».proof.Proof.Gen.KernelIdeal.Frame
import proofs.«413713_j38525856645310_4_alg».proof.Proof.Gen.ReferenceIdeal
import proofs.«413713_j38525856645310_4_alg».proof.Proof.Gen.ReferenceIdeal.Run
import proofs.«413713_j38525856645310_4_alg».proof.Proof.Gen.Pre_finite_inputs
import proofs.«413713_j38525856645310_4_alg».proof.Proof.KernelRun
import proofs.«413713_j38525856645310_4_alg».proof.Proof.RefSide
import proofs.«413713_j38525856645310_4_alg».proof.Proof.MlpAlgebra
import proofs.«413713_j38525856645310_4_alg».proof.Proof.Finite
import Idealize.ShloMosaic.Adequacy
import Idealize.ShloMosaic.Init

noncomputable section

namespace Cert.Proof

open Idealize.ShloMosaic Idealize.SL.Sem Cert.Mlp

theorem frame_k : Cert.frame_Kernel := fun m ρ _ => Cert.Kernel.Gen.frame m ρ

theorem frame_ki : Cert.frame_KernelIdeal := fun m ρ _ => Cert.KernelIdeal.Gen.frame m ρ

/-- The reference has no kernel: its run, with the four results dropped, is its frame. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories that agree on the seven arguments, all of them finite, both programs end with each result at the
    shared tail of the kernel's arrangement: the kernel by its run, the reference because its arrangement is the
    kernel's at real weights. -/
theorem algebraic : Cert.algebraic_KernelIdeal_ReferenceIdeal := by
  intro m ρ m' ρ' hpre hagree
  refine ⟨fun c => Cert.Tail.joinXp (F := Ideal) (K.resXp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => Cert.Tail.joinEven (F := Ideal) (K.resYp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => Cert.Tail.joinEven (F := Ideal) (K.resXpp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => Cert.Tail.joinOdd (F := Ideal) (K.resYpp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    Cert.KernelIdeal.Value.run m ρ, ?_⟩
  refine (θ_run Cert.ReferenceIdeal.defs _ _).mono (fun r h c => ?_) (Cert.ReferenceIdeal.Value.run (F := Ideal) m' ρ')
  obtain ⟨e0, e1, e2, e3, hk⟩ := h c
  obtain ⟨a0, a1, a2, a3, a4, a5, a6⟩ := hagree c
  obtain ⟨-, r1, r2, r3, -, -, r6⟩ := Cert.Finite.real_of_pre _ _ _ _ _ _ _ (hpre c)
  refine ⟨?_, ?_, ?_, ?_, hk⟩
  · rw [e0, Cert.ReferenceIdeal.Read.val_main_v73_eq, Cert.ReferenceIdeal.Side.v73_tail, Cert.ReferenceIdeal.Side.v50_eq,
      a0, a1, a2, a3, a4, a5, a6, ← resXp_eq]
  · rw [e1, Cert.ReferenceIdeal.Read.val_main_v76_eq, Cert.ReferenceIdeal.Side.v76_tail, Cert.ReferenceIdeal.Side.v52_eq,
      a0, a1, a2, a3, a4, a5, a6, ← resYp_eq]
  · rw [e2, Cert.ReferenceIdeal.Read.val_main_v79_eq, Cert.ReferenceIdeal.Side.v79_tail, Cert.ReferenceIdeal.Side.v60_eq,
      a0, a1, a2, a3, a4, a5, a6, ← resXpp_eq _ _ _ _ _ _ _ r1 r2 r3 r6]
  · rw [e3, Cert.ReferenceIdeal.Read.val_main_v83_eq, Cert.ReferenceIdeal.Side.v83_tail, Cert.ReferenceIdeal.Side.v65_eq,
      a0, a1, a2, a3, a4, a5, a6, ← resYpp_eq _ _ _ _ _ _ _ r1 r2 r3 r6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
